-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x3 : Shape := ⟨2, ![640000, 3]⟩
abbrev S640000x1 : Shape := ⟨2, ![640000, 1]⟩
abbrev S640000 : Shape := ⟨1, ![640000]⟩
abbrev S640000x64 : Shape := ⟨2, ![640000, 64]⟩
abbrev S10000x64 : Shape := ⟨2, ![10000, 64]⟩
abbrev S321x128 : Shape := ⟨2, ![321, 128]⟩
abbrev S128 : Shape := ⟨1, ![128]⟩
abbrev S128x128 : Shape := ⟨2, ![128, 128]⟩
abbrev S128x1 : Shape := ⟨2, ![128, 1]⟩
abbrev S320x128 : Shape := ⟨2, ![320, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x3 : S_.BroadcastsInDim S640000x3 (![] : Fin 0 → Fin S640000x3.rank)
  reducesTo_S640000x3_S_d0_1 : S640000x3.ReducesTo [0, 1] S_
  bcast_S_S640000x1 : S_.BroadcastsInDim S640000x1 (![] : Fin 0 → Fin S640000x1.rank)
  reducesTo_S640000x1_S_d0_1 : S640000x1.ReducesTo [0, 1] S_
  bcast_S_S640000x64 : S_.BroadcastsInDim S640000x64 (![] : Fin 0 → Fin S640000x64.rank)
  reducesTo_S640000x64_S_d0_1 : S640000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S321x128 : S_.BroadcastsInDim S321x128 (![] : Fin 0 → Fin S321x128.rank)
  reducesTo_S321x128_S_d0_1 : S321x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S320x128 : S_.BroadcastsInDim S320x128 (![] : Fin 0 → Fin S320x128.rank)
  reducesTo_S320x128_S_d0_1 : S320x128.ReducesTo [0, 1] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128x1 .f32) (main_arg14 : FVec F S320x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S320x128 .f32 := Host.absf main_arg14
  let main_cst_22 : FVec F S_ .f32 := constant S_ .f32 0x7F800000#32
  let main_v60 : FVec F S320x128 .f32 := broadcastInDim S320x128 ![] bcast_S_S320x128 main_cst_22
  let main_v61 : IVec S320x128 1 := cmpf .olt main_v59 main_v60
  let main_c_23 : IVec S_ 1 := constantI S_ 1 1#1
  let main_v62 : IVec S_ 1 := (fun x v => Host.reduce IntOp.andi x v reducesTo_S320x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x1 .f32) (main_arg14 : FVec F S320x128 .f32) (main_arg15 : FVec F S128 .f32) (main_arg16 : FVec F S128x128 .f32) (main_arg17 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S10000x64 .f32) (main_arg7 : FVec F S321x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S320x128 .f32) (main_arg15 : FVec F S128 .f32) (main_arg16 : FVec F S128x128 .f32) (main_arg17 : FVec F S128 .f32) (main_v13 : IVec S_ 1) (main_v16 : IVec S640000x64 1) : IVec S_ 1 :=
  let main_c_5 : IVec S_ 1 := constantI S_ 1 1#1
  let main_v17 : IVec S_ 1 := (fun x v => Host.reduce IntOp.andi x v reducesTo_S640000x64_S_d0_1 h_S_) main_v16 main_c_5
  let main_v18 : IVec S_ 1 := andi main_v13 main_v17
  let main_v19 : FVec F S10000x64 .f32 := Host.absf main_arg6
  let main_cst_6 : FVec F S_ .f32 := constant S_ .f32 0x7F800000#32
  let main_v20 : FVec F S10000x64 .f32 := broadcastInDim S10000x64 ![] bcast_S_S10000x64 main_cst_6
  let main_v21 : IVec S10000x64 1 := cmpf .olt main_v19 main_v20
  let main_c_7 : IVec S_ 1 := constantI S_ 1 1#1
  let main_v22 : IVec S_ 1 := (fun x v => Host.reduce IntOp.andi x v reducesTo_S10000x64_S_d0_1 h_S_) main_v21 main_c_7
  let main_v23 : IVec S_ 1 := andi main_v18 main_v22
  let main_v24 : FVec F S321x128 .f32 := Host.absf main_arg7
  let main_cst_8 : FVec F S_ .f32 := constant S_ .f32 0x7F800000#32
  let main_v25 : FVec F S321x128 .f32 := broadcastInDim S321x128 ![] bcast_S_S321x128 main_cst_8
  let main_v26 : IVec S321x128 1 := cmpf .olt main_v24 main_v25
  let main_c_9 : IVec S_ 1 := constantI S_ 1 1#1
  let main_v27 : IVec S_ 1 := (fun x v => Host.reduce IntOp.andi x v reducesTo_S321x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S10000x128 .f32) (main_arg1 : FVec F S640000x3 .f32) (main_arg2 : FVec F S640000x1 .f32) (main_arg3 : IVec S640000 32) (main_arg4 : IVec S640000 32) (main_arg5 : FVec F S640000x64 .f32) (main_arg6 : FVec F S10000x64 .f32) (main_arg7 : FVec F S321x128 .f32) (main_arg8 : FVec F S128 .f32) (main_arg9 : FVec F S128x128 .f32) (main_arg10 : FVec F S128 .f32) (main_arg11 : FVec F S128x128 .f32) (main_arg12 : FVec F S128 .f32) (main_arg13 : FVec F S128x1 .f32) (main_arg14 : FVec F S320x128 .f32) (main_arg15 : FVec F S128 .f32) (main_arg16 : FVec F S128x128 .f32) (main_arg17 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x3 .f32 := Host.absf main_arg1
  let main_cst_0 : FVec F S_ .f32 := constant S_ .f32 0x7F800000#32
  let main_v5 : FVec F S640000x3 .f32 := broadcastInDim S640000x3 ![] bcast_S_S640000x3 main_cst_0
  let main_v6 : IVec S640000x3 1 := cmpf .olt main_v4 main_v5
  let main_c_1 : IVec S_ 1 := constantI S_ 1 1#1
  let main_v7 : IVec S_ 1 := (fun x v => Host.reduce IntOp.andi x v reducesTo_S640000x3_S_d0_1 h_S_) main_v6 main_c_1
  let main_v8 : IVec S_ 1 := andi main_v3 main_v7
  let main_v9 : FVec F S640000x1 .f32 := Host.absf main_arg2
  let main_cst_2 : FVec F S_ .f32 := constant S_ .f32 0x7F800000#32
  let main_v10 : FVec F S640000x1 .f32 := broadcastInDim S640000x1 ![] bcast_S_S640000x1 main_cst_2
  let main_v11 : IVec S640000x1 1 := cmpf .olt main_v9 main_v10
  let main_c_3 : IVec S_ 1 := constantI S_ 1 1#1
  let main_v12 : IVec S_ 1 := (fun x v => Host.reduce IntOp.andi x v reducesTo_S640000x1_S_d0_1 h_S_) main_v11 main_c_3
  let main_v13 : IVec S_ 1 := andi main_v8 main_v12
  let main_v14 : FVec F S640000x64 .f32 := Host.absf main_arg5
  let main_cst_4 : FVec F S_ .f32 := constant S_ .f32 0x7F800000#32
  let main_v15 : FVec F S640000x64 .f32 := broadcastInDim S640000x64 ![] bcast_S_S640000x64 main_cst_4
  let main_v16 : IVec S640000x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S640000x3 : Shape := ⟨2, ![640000, 3]⟩
abbrev S640000x1 : Shape := ⟨2, ![640000, 1]⟩
abbrev S640000 : Shape := ⟨1, ![640000]⟩
abbrev S640000x64 : Shape := ⟨2, ![640000, 64]⟩
abbrev S10000x64 : Shape := ⟨2, ![10000, 64]⟩
abbrev S321x128 : Shape := ⟨2, ![321, 128]⟩
abbrev S128 : Shape := ⟨1, ![128]⟩
abbrev S128x128 : Shape := ⟨2, ![128, 128]⟩
abbrev S128x1 : Shape := ⟨2, ![128, 1]⟩
abbrev S320x128 : Shape := ⟨2, ![320, 128]⟩
abbrev S1x128 : Shape := ⟨2, ![1, 128]⟩
abbrev S64x128 : Shape := ⟨2, ![64, 128]⟩
abbrev S_ : Shape := ⟨0, ![]⟩
abbrev S640000x128 : Shape := ⟨2, ![640000, 128]⟩
abbrev S2000x128 : Shape := ⟨2, ![2000, 128]⟩
abbrev S2000x1 : Shape := ⟨2, ![2000, 1]⟩
abbrev S2000x64 : Shape := ⟨2, ![2000, 64]⟩
abbrev S2000x3 : Shape := ⟨2, ![2000, 3]⟩
abbrev S10000x3 : Shape := ⟨2, ![10000, 3]⟩

abbrev nBuf : Space → Nat
  | .hbm => 59
  | .vmem => 38
  | .smem => 0
  | _ => 0

abbrev bufTy : (tb : Table) → Fin (tcTables nBuf tb) → BufTy
  | .hbm, ⟨0, _⟩ => ⟨S10000x128, .f32⟩
  | .hbm, ⟨1, _⟩ => ⟨S640000x3, .f32⟩
  | .hbm, ⟨2, _⟩ => ⟨S640000x1, .f32⟩
  | .hbm, ⟨3, _⟩ => ⟨S640000, .i32⟩
  | .hbm, ⟨4, _⟩ => ⟨S640000, .i32⟩
  | .hbm, ⟨5, _⟩ => ⟨S640000x64, .f32⟩
  | .hbm, ⟨6, _⟩ => ⟨S10000x64, .f32⟩
  | .hbm, ⟨7, _⟩ => ⟨S321x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S320x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128x128, .f32⟩
  | .hbm, ⟨20, _⟩ => ⟨S1x128, .f32⟩
  | .hbm, ⟨21, _⟩ => ⟨S64x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S128x128, .f32⟩
  | .hbm, ⟨26, _⟩ => ⟨S128x128, .f32⟩
  | .hbm, ⟨27, _⟩ => ⟨S64x128, .f32⟩
  | .hbm, ⟨28, _⟩ => ⟨S1x128, .f32⟩
  | .hbm, ⟨29, _⟩ => ⟨S1x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .f32⟩
  | .hbm, ⟨48, _⟩ => ⟨S640000x128, .f32⟩
  | .hbm, ⟨49, _⟩ => ⟨S640000x3, .f32⟩
  | .hbm, ⟨50, _⟩ => ⟨S_, .f32⟩
  | .hbm, ⟨51, _⟩ => ⟨S10000x3, .f32⟩
  | .hbm, ⟨52, _⟩ => ⟨S640000x1, .i32⟩
  | .hbm, ⟨53, _⟩ => ⟨S10000x3, .f32⟩
  | .hbm, ⟨54, _⟩ => ⟨S_, .f32⟩
  | .hbm, ⟨55, _⟩ => ⟨S10000x128, .f32⟩
  | .hbm, ⟨56, _⟩ => ⟨S640000x1, .i32⟩
  | .hbm, ⟨57, _⟩ => ⟨S10000x128, .f32⟩
  | .hbm, ⟨58, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x64, .f32⟩
  | .local _ .vmem, ⟨7, _⟩ => ⟨S2000x64, .f32⟩
  | .local _ .vmem, ⟨8, _⟩ => ⟨S2000x3, .f32⟩
  | .local _ .vmem, ⟨9, _⟩ => ⟨S2000x3, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S64x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x1, .f32⟩
  | .local _ .vmem, ⟨20, _⟩ => ⟨S2000x128, .f32⟩
  | .local _ .vmem, ⟨21, _⟩ => ⟨S2000x128, .f32⟩
  | .local _ .vmem, ⟨22, _⟩ => ⟨S2000x3, .f32⟩
  | .local _ .vmem, ⟨23, _⟩ => ⟨S2000x3, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x64, .f32⟩
  | .local _ .vmem, ⟨29, _⟩ => ⟨S2000x64, .f32⟩
  | .local _ .vmem, ⟨30, _⟩ => ⟨S128x128, .f32⟩
  | .local _ .vmem, ⟨31, _⟩ => ⟨S128x128, .f32⟩
  | .local _ .vmem, ⟨32, _⟩ => ⟨S64x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem9_1 : DmaSem sig := 37

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S321x128_S128x128_0_0 : S321x128.Slices ![0, 0] S128x128
  slices_S321x128_S128x128_128_0 : S321x128.Slices ![128, 0] S128x128
  slices_S321x128_S1x128_256_0 : S321x128.Slices ![256, 0] S1x128
  slices_S321x128_S64x128_257_0 : S321x128.Slices ![257, 0] S64x128
  shapeCasts_S128_S1x128 : S128.ShapeCasts S1x128
  slices_S320x128_S128x128_0_0 : S320x128.Slices ![0, 0] S128x128
  slices_S320x128_S128x128_128_0 : S320x128.Slices ![128, 0] S128x128
  slices_S320x128_S64x128_256_0 : S320x128.Slices ![256, 0] S64x128
  bcast_S_S640000 : S_.BroadcastsInDim S640000 (![] : Fin 0 → Fin S640000.rank)
  bcast_S640000_S640000x1_0 : S640000.BroadcastsInDim S640000x1 (![0] : Fin 1 → Fin S640000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x1_S2000x1_0_0 : ∀ a, (![0, 0] : Fin 2 → Nat) a + S2000x1.size a ≤ S2000x1.size a
  h_S2000x1 : 0 < S2000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S2000x3_S2000x3_0_0 : ∀ a, (![0, 0] : Fin 2 → Nat) a + S2000x3.size a ≤ S2000x3.size a
  h_S2000x3 : 0 < S2000x3.numel
  broadcasts_S2000x1_S2000x3 : S2000x1.Broadcasts S2000x3
  bcast_S_S10000x3 : S_.BroadcastsInDim S10000x3 (![] : Fin 0 → Fin S10000x3.rank)
  bcast_S_S10000x128 : S_.BroadcastsInDim S10000x128 (![] : Fin 0 → Fin S10000x128.rank)
  gather_S10000x128_S640000x1_S640000x128_1_0_n_n_0_1_1128_wf : GatherDims.WF S10000x128 S640000x1 S640000x128 [1] [0] [] [0] [] 1 ![1, 128]
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  dot_S2000x128_S128x1_S2000x1_1_0_0_1_n_n_wf : DotDims.WF S2000x128 S128x1 S2000x1 [1] [0] [0] [1] [] []
  scatter_S10000x3_S640000x1_S640000x3_1_0_0_1_wf : ScatterDims.WF S10000x3 S640000x1 S640000x3 [1] [0] [0] 1
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .f32 = 32 ∨ (Rect.block (s := S640000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .f32 = 32 ∨ (Rect.block (s := S640000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S640000x1.size a
  hwx0_2 : ∀ i : grid0.Coords, EltTy.bits .f32 = 32 ∨ (Rect.block (s := S640000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S640000x64.size a
  hwx0_3 : ∀ i : grid0.Coords, EltTy.bits .f32 = 32 ∨ (Rect.block (s := S640000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S640000x3.size a
  hwx0_4 : ∀ i : grid0.Coords, EltTy.bits .f32 = 32 ∨ (Rect.block (s := S640000x3) S2000x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S640000x128.size a
  hwx0_15 : ∀ i : grid0.Coords, EltTy.bits .f32 = 32 ∨ (Rect.block (s := S640000x128) S2000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x3.size a ≤ S640000x3.size a
  hwx0_16 : ∀ i : grid0.Coords, EltTy.bits .f32 = 32 ∨ (Rect.block (s := S640000x3) S2000x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S10000x64.size a
  hwx1_2 : ∀ i : grid1.Coords, EltTy.bits .f32 = 32 ∨ (Rect.block (s := S10000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S10000x128.size a
  hwx1_9 : ∀ i : grid1.Coords, EltTy.bits .f32 = 32 ∨ (Rect.block (s := S10000x128) S2000x128.size (cc1_transform_9 i) (hinb1_9 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S10000x3_S640000x1_S640000x3_1_0_0_1 : ScatterDims S10000x3 S640000x1 S640000x3 where
  updateWindowDims := [1]
  insertedWindowDims := [0]
  scatterDimsToOperandDims := [0]
  indexVectorDim := 1
  wf := scatter_S10000x3_S640000x1_S640000x3_1_0_0_1_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S2000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26_0) S2000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v26_1) S2000x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x3 : Shape := ⟨2, ![640000, 3]⟩
abbrev S640000x1 : Shape := ⟨2, ![640000, 1]⟩
abbrev S640000 : Shape := ⟨1, ![640000]⟩
abbrev S640000x64 : Shape := ⟨2, ![640000, 64]⟩
abbrev S10000x64 : Shape := ⟨2, ![10000, 64]⟩
abbrev S321x128 : Shape := ⟨2, ![321, 128]⟩
abbrev S128 : Shape := ⟨1, ![128]⟩
abbrev S128x128 : Shape := ⟨2, ![128, 128]⟩
abbrev S128x1 : Shape := ⟨2, ![128, 1]⟩
abbrev S320x128 : Shape := ⟨2, ![320, 128]⟩
abbrev S_ : Shape := ⟨0, ![]⟩
abbrev S640000x128 : Shape := ⟨2, ![640000, 128]⟩
abbrev S640000x321 : Shape := ⟨2, ![640000, 321]⟩
abbrev S1x128 : Shape := ⟨2, ![1, 128]⟩
abbrev S10000x3 : Shape := ⟨2, ![10000, 3]⟩
abbrev S10000x320 : Shape := ⟨2, ![10000, 320]⟩

abbrev nBuf : Space → Nat
  | .hbm => 106
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x3, .f32⟩
  | .hbm, ⟨2, _⟩ => ⟨S640000x1, .f32⟩
  | .hbm, ⟨3, _⟩ => ⟨S640000, .i32⟩
  | .hbm, ⟨4, _⟩ => ⟨S640000, .i32⟩
  | .hbm, ⟨5, _⟩ => ⟨S640000x64, .f32⟩
  | .hbm, ⟨6, _⟩ => ⟨S10000x64, .f32⟩
  | .hbm, ⟨7, _⟩ => ⟨S321x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S320x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x321, .f32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S1x128, .f32⟩
  | .hbm, ⟨52, _⟩ => ⟨S640000x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S640000x128, .f32⟩
  | .hbm, ⟨58, _⟩ => ⟨S640000x128, .f32⟩
  | .hbm, ⟨59, _⟩ => ⟨S_, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S1x128, .f32⟩
  | .hbm, ⟨65, _⟩ => ⟨S640000x128, .f32⟩
  | .hbm, ⟨66, _⟩ => ⟨S640000x128, .f32⟩
  | .hbm, ⟨67, _⟩ => ⟨S640000x128, .f32⟩
  | .hbm, ⟨68, _⟩ => ⟨S640000x128, .f32⟩
  | .hbm, ⟨69, _⟩ => ⟨S_, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S640000x128, .f32⟩
  | .hbm, ⟨74, _⟩ => ⟨S640000x128, .f32⟩
  | .hbm, ⟨75, _⟩ => ⟨S640000x128, .f32⟩
  | .hbm, ⟨76, _⟩ => ⟨S640000x1, .f32⟩
  | .hbm, ⟨77, _⟩ => ⟨S640000x3, .f32⟩
  | .hbm, ⟨78, _⟩ => ⟨S640000x3, .f32⟩
  | .hbm, ⟨79, _⟩ => ⟨S_, .f32⟩
  | .hbm, ⟨80, _⟩ => ⟨S10000x3, .f32⟩
  | .hbm, ⟨81, _⟩ => ⟨S640000x1, .i32⟩
  | .hbm, ⟨82, _⟩ => ⟨S10000x3, .f32⟩
  | .hbm, ⟨83, _⟩ => ⟨S_, .f32⟩
  | .hbm, ⟨84, _⟩ => ⟨S10000x128, .f32⟩
  | .hbm, ⟨85, _⟩ => ⟨S640000x1, .i32⟩
  | .hbm, ⟨86, _⟩ => ⟨S10000x128, .f32⟩
  | .hbm, ⟨87, _⟩ => ⟨S10000x320, .f32⟩
  | .hbm, ⟨88, _⟩ => ⟨S10000x128, .f32⟩
  | .hbm, ⟨89, _⟩ => ⟨S1x128, .f32⟩
  | .hbm, ⟨90, _⟩ => ⟨S10000x128, .f32⟩
  | .hbm, ⟨91, _⟩ => ⟨S10000x128, .f32⟩
  | .hbm, ⟨92, _⟩ => ⟨S10000x128, .f32⟩
  | .hbm, ⟨93, _⟩ => ⟨S10000x128, .f32⟩
  | .hbm, ⟨94, _⟩ => ⟨S_, .f32⟩
  | .hbm, ⟨95, _⟩ => ⟨S10000x128, .f32⟩
  | .hbm, ⟨96, _⟩ => ⟨S10000x128, .f32⟩
  | .hbm, ⟨97, _⟩ => ⟨S_, .f32⟩
  | .hbm, ⟨98, _⟩ => ⟨S10000x128, .f32⟩
  | .hbm, ⟨99, _⟩ => ⟨S10000x128, .f32⟩
  | .hbm, ⟨100, _⟩ => ⟨S10000x128, .f32⟩
  | .hbm, ⟨101, _⟩ => ⟨S10000x128, .f32⟩
  | .hbm, ⟨102, _⟩ => ⟨S1x128, .f32⟩
  | .hbm, ⟨103, _⟩ => ⟨S10000x128, .f32⟩
  | .hbm, ⟨104, _⟩ => ⟨S10000x128, .f32⟩
  | .hbm, ⟨105, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_3 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x1_S640000x64_S640000x321_d1 : Shape.Concatenates [S640000x128, S640000x128, S640000x1, S640000x64] S640000x321 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x3_0_1 : S640000x1.BroadcastsInDim S640000x3 (![0, 1] : Fin 2 → Fin S640000x3.rank)
  bcast_S_S10000x3 : S_.BroadcastsInDim S10000x3 (![] : Fin 0 → Fin S10000x3.rank)
  bcast_S_S10000x128 : S_.BroadcastsInDim S10000x128 (![] : Fin 0 → Fin S10000x128.rank)
  concatenates_S10000x128_S10000x128_S10000x64_S10000x320_d1 : Shape.Concatenates [S10000x128, S10000x128, S10000x64] S10000x320 1
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x321_S321x128_S640000x128_1_0_0_1_n_n_wf : DotDims.WF S640000x321 S321x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S10000x3_S640000x1_S640000x3_1_0_0_1_wf : ScatterDims.WF S10000x3 S640000x1 S640000x3 [1] [0] [0] 1
  scatter_S10000x128_S640000x1_S640000x128_1_0_0_1_wf : ScatterDims.WF S10000x128 S640000x1 S640000x128 [1] [0] [0] 1
  dot_S10000x320_S320x128_S10000x128_1_0_0_1_n_n_wf : DotDims.WF S10000x320 S320x128 S10000x128 [1] [0] [0] [1] [] []
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x321_S321x128_S640000x128_1_0_0_1_n_n : DotDims S640000x321 S321x128 S640000x128 where
  lhsContracting := [1]
  rhsContracting := [0]
  lhsNonContracting := [0]
  rhsNonContracting := [1]
  lhsBatch := []
  rhsBatch := []
  wf := dot_S640000x321_S321x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S10000x3_S640000x1_S640000x3_1_0_0_1 : ScatterDims S10000x3 S640000x1 S640000x3 where
  updateWindowDims := [1]
  insertedWindowDims := [0]
  scatterDimsToOperandDims := [0]
  indexVectorDim := 1
  wf := scatter_S10000x3_S640000x1_S640000x3_1_0_0_1_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x320_S320x128_S10000x128_1_0_0_1_n_n : DotDims S10000x320 S320x128 S10000x128 where
  lhsContracting := [1]
  rhsContracting := [0]
  lhsNonContracting := [0]
  rhsNonContracting := [1]
  lhsBatch := []
  rhsBatch := []
  wf := dot_S10000x320_S320x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The message-passing layer as functions of one row.

  An edge's message and a node's update depend on ONE row of each per-edge (per-node) array and on the
  weight matrices.  Everything is stated here over plain functions `Fin K → EReal`; the two programs'
  arrays are plugged in through `row`, `mat`, `vec`.

  The one law the two programs differ by: a dense layer applied to a concatenated row is the sum of the
  dense layers of the pieces (`sum_cat4`, `sum_cat3`) — a finite sum split at the pieces' boundaries,
  valid in any commutative additive monoid, hence on the extended reals with no finiteness assumption.
-/
import Idealize.ShloMosaic.PureOps.Ideal
import Idealize.ShloMosaic.PureOps.Ideal.Laws
import Idealize.ShloMosaic.Lib.ValueIdx
import Mathlib.Algebra.BigOperators.Fin

noncomputable section

namespace Cert.Egnn

open Idealize.ShloMosaic Idealize.ShloMosaic.ValueIdx

/-- `x · σ(x)` with `σ` the logistic function, on the extended reals. -/
def silu (x : EReal) : EReal := x * Ideal.logistic x

/-- Column `j` of a dense layer on one row: `∑ₖ a k · W k j + b j`. -/
def dense {K : ℕ} (a : Fin K → EReal) (W : Fin K → Fin 128 → EReal) (b : Fin 128 → EReal) (j : Fin 128) : EReal :=
  (∑ k, a k * W k j) + b j

/-- An edge's input row: source features, destination features, the squared distance, the time embedding. -/
def cat4 (xs xd : Fin 128 → EReal) (d : EReal) (te : Fin 64 → EReal) : Fin 321 → EReal := fun k =>
  if h1 : k.val < 128 then xs ⟨k.val, h1⟩
  else if h2 : k.val < 256 then xd ⟨k.val - 128, by omega⟩
  else if k.val < 257 then d
  else te ⟨k.val - 257, by omega⟩

/-- A node's input row: its features, its aggregated messages, its time embedding. -/
def cat3 (h mi : Fin 128 → EReal) (t : Fin 64 → EReal) : Fin 320 → EReal := fun k =>
  if h1 : k.val < 128 then h ⟨k.val, h1⟩
  else if h2 : k.val < 256 then mi ⟨k.val - 128, by omega⟩
  else t ⟨k.val - 256, by omega⟩

/-- A sum over 321 terms split at 128, 256 and 257. -/
theorem sum_split321 {M : Type*} [AddCommMonoid M] (f : Fin 321 → M) :
    ∑ k, f k = (∑ k : Fin 128, f ⟨k.val, by omega⟩) + ((∑ k : Fin 128, f ⟨128 + k.val, by omega⟩)
      + (f ⟨256, by omega⟩ + ∑ k : Fin 64, f ⟨257 + k.val, by omega⟩)) := by
  have e1 := Fin.sum_univ_add (a := 128) (b := 193) (f := (f : Fin (128 + 193) → M))
  have e2 := Fin.sum_univ_add (a := 128) (b := 65) (f := fun i : Fin (128 + 65) => f ⟨128 + i.val, by omega⟩)
  have e3 := Fin.sum_univ_add (a := 1) (b := 64) (f := fun i : Fin (1 + 64) => f ⟨256 + i.val, by omega⟩)
  rw [Fin.sum_univ_one] at e3
  refine e1.trans ?_
  congr 1

/-- A sum over 320 terms split at 128 and 256. -/
theorem sum_split320 {M : Type*} [AddCommMonoid M] (f : Fin 320 → M) :
    ∑ k, f k = (∑ k : Fin 128, f ⟨k.val, by omega⟩) + ((∑ k : Fin 128, f ⟨128 + k.val, by omega⟩)
      + ∑ k : Fin 64, f ⟨256 + k.val, by omega⟩) := by
  have e1 := Fin.sum_univ_add (a := 128) (b := 192) (f := (f : Fin (128 + 192) → M))
  have e2 := Fin.sum_univ_add (a := 128) (b := 64) (f := fun i : Fin (128 + 64) => f ⟨128 + i.val, by omega⟩)
  refine e1.trans ?_
  congr 1

/-! ## Rows and matrices out of arrays -/

/-- Row `r` of a rank-two array. -/
def row {n K : ℕ} (X : (⟨2, ![n, K]⟩ : Shape).Idx → EReal) (r : Fin n) : Fin K → EReal := fun k => X (ix2 r k)

/-- A rank-two array as a function of its two coordinates. -/
def mat {n K : ℕ} (X : (⟨2, ![n, K]⟩ : Shape).Idx → EReal) : Fin n → Fin K → EReal := fun r k => X (ix2 r k)

/-- A rank-one array as a function of its coordinate. -/
def vec {n : ℕ} (b : (⟨1, ![n]⟩ : Shape).Idx → EReal) : Fin n → EReal := fun j => b (ix1 j)

/-! ## The layers on one row -/

/-- The first edge layer before its activation, added up piece by piece: source, destination and time-embedding
    products, the distance's outer product, the bias. -/
def edgePre (xs xd : Fin 128 → EReal) (d : EReal) (te : Fin 64 → EReal)
    (Ws Wd : Fin 128 → Fin 128 → EReal) (wd : Fin 128 → EReal) (Wt : Fin 64 → Fin 128 → EReal)
    (b : Fin 128 → EReal) (j : Fin 128) : EReal :=
  ((((∑ k, xs k * Ws k j) + ∑ k, xd k * Wd k j) + ∑ k, te k * Wt k j) + d * wd j) + b j

/-- An edge's message from its first-layer pre-activations: activation, second dense layer, activation. -/
def msgOf (p : Fin 128 → EReal) (W2 : Fin 128 → Fin 128 → EReal) (b2 : Fin 128 → EReal) (j : Fin 128) : EReal :=
  silu (dense (fun k => silu (p k)) W2 b2 j)

/-- An edge's coordinate weight from its message: dense layer, activation, a bias-free projection to one number. -/
def coordW (msg : Fin 128 → EReal) (cW1 : Fin 128 → Fin 128 → EReal) (cb1 : Fin 128 → EReal) (cW2 : Fin 128 → EReal) : EReal :=
  ∑ k, silu (dense msg cW1 cb1 k) * cW2 k

/-- The first node layer before its activation, added up piece by piece. -/
def nodePre (h mi : Fin 128 → EReal) (t : Fin 64 → EReal)
    (Wh Wm : Fin 128 → Fin 128 → EReal) (Wt : Fin 64 → Fin 128 → EReal) (b : Fin 128 → EReal) (j : Fin 128) : EReal :=
  (((∑ k, h k * Wh k j) + ∑ k, mi k * Wm k j) + ∑ k, t k * Wt k j) + b j

/-- A node's new feature `j`: the old one plus the second dense layer of the activated pre-activations. -/
def nodeOut (hj : EReal) (p : Fin 128 → EReal) (W2 : Fin 128 → Fin 128 → EReal) (b2 : Fin 128 → EReal) (j : Fin 128) : EReal :=
  hj + dense (fun k => silu (p k)) W2 b2 j

/-- The dense layer of a concatenated edge row is the piecewise sum, the weight matrix cut at rows 128, 256, 257. -/
theorem dense_cat4 (xs xd : Fin 128 → EReal) (d : EReal) (te : Fin 64 → EReal) (W : Fin 321 → Fin 128 → EReal)
    (b : Fin 128 → EReal) (j : Fin 128) :
    dense (cat4 xs xd d te) W b j
      = edgePre xs xd d te (fun k => W ⟨k.val, by omega⟩) (fun k => W ⟨128 + k.val, by omega⟩) (W ⟨256, by omega⟩)
          (fun k => W ⟨257 + k.val, by omega⟩) b j := by
  unfold dense edgePre
  rw [sum_split321]
  have h1 : ∀ k : Fin 128, cat4 xs xd d te ⟨k.val, by omega⟩ = xs k := fun k => by
    unfold cat4; rw [dif_pos k.isLt]
  have h2 : ∀ k : Fin 128, cat4 xs xd d te ⟨128 + k.val, by omega⟩ = xd k := fun k => by
    unfold cat4
    rw [dif_neg (by show ¬ 128 + k.val < 128; omega), dif_pos (by show 128 + k.val < 256; omega)]
    exact congrArg xd (Fin.ext (by show 128 + k.val - 128 = k.val; omega))
  have h3 : cat4 xs xd d te ⟨256, by omega⟩ = d := by
    unfold cat4
    rw [dif_neg (by decide), dif_neg (by decide), if_pos (by decide)]
  have h4 : ∀ k : Fin 64, cat4 xs xd d te ⟨257 + k.val, by omega⟩ = te k := fun k => by
    unfold cat4
    rw [dif_neg (by show ¬ 257 + k.val < 128; omega), dif_neg (by show ¬ 257 + k.val < 256; omega),
      if_neg (by show ¬ 257 + k.val < 257; omega)]
    exact congrArg te (Fin.ext (by show 257 + k.val - 257 = k.val; omega))
  simp only [h1, h2, h3, h4]
  congr 1
  -- (A + (B + (c + T))) = ((A + B) + T) + c
  rw [← add_assoc, ← add_assoc, add_right_comm (_ + _) (d * _) _]

/-- The dense layer of a concatenated node row is the piecewise sum, the weight matrix cut at rows 128 and 256. -/
theorem dense_cat3 (h mi : Fin 128 → EReal) (t : Fin 64 → EReal) (W : Fin 320 → Fin 128 → EReal)
    (b : Fin 128 → EReal) (j : Fin 128) :
    dense (cat3 h mi t) W b j
      = nodePre h mi t (fun k => W ⟨k.val, by omega⟩) (fun k => W ⟨128 + k.val, by omega⟩)
          (fun k => W ⟨256 + k.val, by omega⟩) b j := by
  unfold dense nodePre
  rw [sum_split320]
  have h1 : ∀ k : Fin 128, cat3 h mi t ⟨k.val, by omega⟩ = h k := fun k => by
    unfold cat3; rw [dif_pos k.isLt]
  have h2 : ∀ k : Fin 128, cat3 h mi t ⟨128 + k.val, by omega⟩ = mi k := fun k => by
    unfold cat3
    rw [dif_neg (by show ¬ 128 + k.val < 128; omega), dif_pos (by show 128 + k.val < 256; omega)]
    exact congrArg mi (Fin.ext (by show 128 + k.val - 128 = k.val; omega))
  have h3 : ∀ k : Fin 64, cat3 h mi t ⟨256 + k.val, by omega⟩ = t k := fun k => by
    unfold cat3
    rw [dif_neg (by show ¬ 256 + k.val < 128; omega), dif_neg (by show ¬ 256 + k.val < 256; omega)]
    exact congrArg t (Fin.ext (by show 256 + k.val - 256 = k.val; omega))
  simp only [h1, h2, h3]
  rw [← add_assoc]

/-! ## The layer on whole arrays -/

/-- Every edge's message: row `e` from row `e` of the gathered source and destination features, the squared
    distance and the time embedding. -/
def msgArr (HS HD : (⟨2, ![640000, 128]⟩ : Shape).Idx → EReal) (D : (⟨2, ![640000, 1]⟩ : Shape).Idx → EReal)
    (TE : (⟨2, ![640000, 64]⟩ : Shape).Idx → EReal) (W1 : (⟨2, ![321, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![640000, 128]⟩ : Shape).Idx → EReal := fun i =>
  msgOf (dense (cat4 (row HS (i 0)) (row HD (i 0)) (D (ix2 (i 0) 0)) (row TE (i 0))) (mat W1) (vec b1)) (mat W2) (vec b2) (i 1)

/-- Every edge's coordinate contribution: its displacement times its coordinate weight. -/
def coordArr (DIFF : (⟨2, ![640000, 3]⟩ : Shape).Idx → EReal) (MSG : (⟨2, ![640000, 128]⟩ : Shape).Idx → EReal)
    (cW1 : (⟨2, ![128, 128]⟩ : Shape).Idx → EReal) (cb1 : (⟨1, ![128]⟩ : Shape).Idx → EReal)
    (cW2 : (⟨2, ![128, 1]⟩ : Shape).Idx → EReal) : (⟨2, ![640000, 3]⟩ : Shape).Idx → EReal := fun i =>
  DIFF i * coordW (row MSG (i 0)) (mat cW1) (vec cb1) (fun k => cW2 (ix2 k 0))

/-- Every node's new features from its old ones, its aggregated messages and its time embedding. -/
def nodeArr (H MI : (⟨2, ![10000, 128]⟩ : Shape).Idx → EReal) (T : (⟨2, ![10000, 64]⟩ : Shape).Idx → EReal)
    (W1 : (⟨2, ![320, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![10000, 128]⟩ : Shape).Idx → EReal := fun i =>
  nodeOut (H i) (dense (cat3 (row H (i 0)) (row MI (i 0)) (row T (i 0))) (mat W1) (vec b1)) (mat W2) (vec b2) (i 1)

end Cert.Egnn

end
-- ==== Proof.KernelHost.lean ====
/-
  The host side of the idealized kernel: what each kernel region finds in its arrays on entry, as operations of the
  arguments (gathers of node rows at the edges' end points, row slices of the first-layer weight matrices, biases
  reshaped to one row), and what the program's results are in terms of the regions' output arrays (scatter-adds from
  zero).  Also the slices and reshapes read entry by entry.
-/
import proofs.«100746_j18837726560908_1_alg».proof.Proof.Gen.KernelIdeal.Frame
import proofs.«100746_j18837726560908_1_alg».proof.Proof.Spec
import Idealize.ShloMosaic.PureOps.Ideal
import Idealize.ShloMosaic.Lib.StableHlo.Run
import Idealize.ShloMosaic.Lib.ValueLayout
import Idealize.ShloMosaic.Lib.Pipeline.Value
import Idealize.ShloMosaic.Lib.ValueIdx

set_option maxRecDepth 16384

noncomputable section

namespace Cert.Egnn.Host

open Idealize.ShloMosaic Idealize.ShloMosaic.TcCoe Idealize.ShloMosaic.ValueIdx Idealize.SL.Sem Idealize.ShloMosaic.StableHlo
open Cert.KernelIdeal Cert.KernelIdeal.Gen Cert.Egnn

/-! ## Slices of a weight matrix and a bias as a one-row matrix -/

theorem mat_slice321_0 (W : FVec Ideal S321x128 .f32) :
    mat (extractStridedSlice S128x128 ![0, 0] W slices_S321x128_S128x128_0_0) = fun k => mat W ⟨k.val, by omega⟩ := by
  funext k j
  exact slice2_axis0_apply 0 W slices_S321x128_S128x128_0_0 k j ⟨k.val, by omega⟩ (Nat.zero_add _).symm

theorem mat_slice321_128 (W : FVec Ideal S321x128 .f32) :
    mat (extractStridedSlice S128x128 ![128, 0] W slices_S321x128_S128x128_128_0) = fun k => mat W ⟨128 + k.val, by omega⟩ := by
  funext k j
  exact slice2_axis0_apply 128 W slices_S321x128_S128x128_128_0 k j ⟨128 + k.val, by omega⟩ rfl

theorem row_slice321_256 (W : FVec Ideal S321x128 .f32) :
    row (extractStridedSlice S1x128 ![256, 0] W slices_S321x128_S1x128_256_0) 0 = mat W ⟨256, by omega⟩ := by
  funext j
  exact slice2_axis0_apply 256 W slices_S321x128_S1x128_256_0 0 j ⟨256, by omega⟩ rfl

theorem mat_slice321_257 (W : FVec Ideal S321x128 .f32) :
    mat (extractStridedSlice S64x128 ![257, 0] W slices_S321x128_S64x128_257_0) = fun k => mat W ⟨257 + k.val, by omega⟩ := by
  funext k j
  exact slice2_axis0_apply 257 W slices_S321x128_S64x128_257_0 k j ⟨257 + k.val, by omega⟩ rfl

theorem mat_slice320_0 (W : FVec Ideal S320x128 .f32) :
    mat (extractStridedSlice S128x128 ![0, 0] W slices_S320x128_S128x128_0_0) = fun k => mat W ⟨k.val, by omega⟩ := by
  funext k j
  exact slice2_axis0_apply 0 W slices_S320x128_S128x128_0_0 k j ⟨k.val, by omega⟩ (Nat.zero_add _).symm

theorem mat_slice320_128 (W : FVec Ideal S320x128 .f32) :
    mat (extractStridedSlice S128x128 ![128, 0] W slices_S320x128_S128x128_128_0) = fun k => mat W ⟨128 + k.val, by omega⟩ := by
  funext k j
  exact slice2_axis0_apply 128 W slices_S320x128_S128x128_128_0 k j ⟨128 + k.val, by omega⟩ rfl

theorem mat_slice320_256 (W : FVec Ideal S320x128 .f32) :
    mat (extractStridedSlice S64x128 ![256, 0] W slices_S320x128_S64x128_256_0) = fun k => mat W ⟨256 + k.val, by omega⟩ := by
  funext k j
  exact slice2_axis0_apply 256 W slices_S320x128_S64x128_256_0 k j ⟨256 + k.val, by omega⟩ rfl

/-- A bias reshaped to one row, read along that row, is the bias. -/
theorem row_reshape (b : FVec Ideal S128 .f32) :
    row (shapeCast S1x128 b shapeCasts_S128_S1x128) 0 = vec b := by
  funext j
  show shapeCast S1x128 b shapeCasts_S128_S1x128 (ix2 0 j) = b (ix1 j)
  refine (shapeCast_addUnit_apply (n := 1) ![128] b shapeCasts_S128_S1x128 (ix2 0 j)).trans ?_
  exact congrArg b (funext fun a => by match a with | ⟨0, _⟩ => rfl)

/-! ## The host operations around the regions -/

/-- An index column, a negative index counting from the end (the host program's normalisation before a gather). -/
def normIdx (x : IVec S640000 32) : IVec S640000x1 32 :=
  broadcastInDim S640000x1 ![0] bcast_S640000_S640000x1_0
    (select (cmpi .slt x (broadcastInDim S640000 ![] bcast_S_S640000 (constantI S_ 32 0#32)))
      (addi x (broadcastInDim S640000 ![] bcast_S_S640000 (constantI S_ 32 10000#32))) x)

/-- Rows of the node features gathered at the edges' end points. -/
def gathered (h : FVec Ideal S10000x128 .f32) (x : IVec S640000 32) : FVec Ideal S640000x128 .f32 :=
  Host.gather gather_S10000x128_S640000x1_S640000x128_1_0_n_n_0_1_1128 h (normIdx x)

/-- Per-edge rows of width 128 added up onto the nodes, from zero. -/
def scattered128 (x : IVec S640000 32) (u : FVec Ideal S640000x128 .f32) : FVec Ideal S10000x128 .f32 :=
  Host.scatterAdd scatter_S10000x128_S640000x1_S640000x128_1_0_0_1
    (broadcastInDim S10000x128 ![] bcast_S_S10000x128 (constant (F := Ideal) S_ .f32 0x00000000#32))
    (broadcastInDim S640000x1 ![0] bcast_S640000_S640000x1_0 x) u

/-- Per-edge rows of width 3 added up onto the nodes, from zero. -/
def scattered3 (x : IVec S640000 32) (u : FVec Ideal S640000x3 .f32) : FVec Ideal S10000x3 .f32 :=
  Host.scatterAdd scatter_S10000x3_S640000x1_S640000x3_1_0_0_1
    (broadcastInDim S10000x3 ![] bcast_S_S10000x3 (constant (F := Ideal) S_ .f32 0x00000000#32))
    (broadcastInDim S640000x1 ![0] bcast_S640000_S640000x1_0 x) u

variable (m : (ℓ : Loc nD τ sig) → Buf (Elt Ideal) ℓ) (ρ : Dev nD → PrngReg)

set_option maxHeartbeats 1600000 in
theorem V1_v18 (c : Dev nD) : V1 m ρ c main_v18 = gathered (m ((c : Thread nD τ).loc main_arg0)) (m ((c : Thread nD τ).loc main_arg3)) := by
  show StableHlo.after hostOps0 (W0 m ρ c) (Proc.devRef .tc main_v18) = _
  after_results
  rfl
set_option maxHeartbeats 1600000 in
theorem V1_v25 (c : Dev nD) : V1 m ρ c main_v25 = gathered (m ((c : Thread nD τ).loc main_arg0)) (m ((c : Thread nD τ).loc main_arg4)) := by
  show StableHlo.after hostOps0 (W0 m ρ c) (Proc.devRef .tc main_v25) = _
  after_results
  rfl
theorem V1_arg1 (c : Dev nD) : V1 m ρ c main_arg1 = (m ((c : Thread nD τ).loc main_arg1)) := by
  show StableHlo.after hostOps0 (W0 m ρ c) (Proc.devRef .tc main_arg1) = _
  after_results
theorem V1_arg2 (c : Dev nD) : V1 m ρ c main_arg2 = (m ((c : Thread nD τ).loc main_arg2)) := by
  show StableHlo.after hostOps0 (W0 m ρ c) (Proc.devRef .tc main_arg2) = _
  after_results
theorem V1_arg5 (c : Dev nD) : V1 m ρ c main_arg5 = (m ((c : Thread nD τ).loc main_arg5)) := by
  show StableHlo.after hostOps0 (W0 m ρ c) (Proc.devRef .tc main_arg5) = _
  after_results
theorem V1_arg9 (c : Dev nD) : V1 m ρ c main_arg9 = (m ((c : Thread nD τ).loc main_arg9)) := by
  show StableHlo.after hostOps0 (W0 m ρ c) (Proc.devRef .tc main_arg9) = _
  after_results
theorem V1_arg11 (c : Dev nD) : V1 m ρ c main_arg11 = (m ((c : Thread nD τ).loc main_arg11)) := by
  show StableHlo.after hostOps0 (W0 m ρ c) (Proc.devRef .tc main_arg11) = _
  after_results
theorem V1_arg13 (c : Dev nD) : V1 m ρ c main_arg13 = (m ((c : Thread nD τ).loc main_arg13)) := by
  show StableHlo.after hostOps0 (W0 m ρ c) (Proc.devRef .tc main_arg13) = _
  after_results
theorem V1_v0 (c : Dev nD) : V1 m ρ c main_v0 = extractStridedSlice S128x128 ![0, 0] (m ((c : Thread nD τ).loc main_arg7)) slices_S321x128_S128x128_0_0 := by
  show StableHlo.after hostOps0 (W0 m ρ c) (Proc.devRef .tc main_v0) = _
  after_results
theorem V1_v1 (c : Dev nD) : V1 m ρ c main_v1 = extractStridedSlice S128x128 ![128, 0] (m ((c : Thread nD τ).loc main_arg7)) slices_S321x128_S128x128_128_0 := by
  show StableHlo.after hostOps0 (W0 m ρ c) (Proc.devRef .tc main_v1) = _
  after_results
theorem V1_v2 (c : Dev nD) : V1 m ρ c main_v2 = extractStridedSlice S1x128 ![256, 0] (m ((c : Thread nD τ).loc main_arg7)) slices_S321x128_S1x128_256_0 := by
  show StableHlo.after hostOps0 (W0 m ρ c) (Proc.devRef .tc main_v2) = _
  after_results
theorem V1_v3 (c : Dev nD) : V1 m ρ c main_v3 = extractStridedSlice S64x128 ![257, 0] (m ((c : Thread nD τ).loc main_arg7)) slices_S321x128_S64x128_257_0 := by
  show StableHlo.after hostOps0 (W0 m ρ c) (Proc.devRef .tc main_v3) = _
  after_results
theorem V1_v4 (c : Dev nD) : V1 m ρ c main_v4 = shapeCast S1x128 (m ((c : Thread nD τ).loc main_arg8)) shapeCasts_S128_S1x128 := by
  show StableHlo.after hostOps0 (W0 m ρ c) (Proc.devRef .tc main_v4) = _
  after_results
  rfl
theorem V1_v5 (c : Dev nD) : V1 m ρ c main_v5 = shapeCast S1x128 (m ((c : Thread nD τ).loc main_arg10)) shapeCasts_S128_S1x128 := by
  show StableHlo.after hostOps0 (W0 m ρ c) (Proc.devRef .tc main_v5) = _
  after_results
  rfl
theorem V1_v6 (c : Dev nD) : V1 m ρ c main_v6 = shapeCast S1x128 (m ((c : Thread nD τ).loc main_arg12)) shapeCasts_S128_S1x128 := by
  show StableHlo.after hostOps0 (W0 m ρ c) (Proc.devRef .tc main_v6) = _
  after_results
  rfl
theorem V3_arg0 (c : Dev nD) : V3 m ρ c main_arg0 = (m ((c : Thread nD τ).loc main_arg0)) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results
theorem V3_arg6 (c : Dev nD) : V3 m ρ c main_arg6 = (m ((c : Thread nD τ).loc main_arg6)) := by
  show StableHlo.after hostOps1 (W2 m ρ c) (Proc.devRef .tc main_arg6) = _
  after_results
  refine (W2_of_ne m ρ c main_arg6 (by decide)).trans ?_
  show StableHlo.after hostOps0 (W0 m ρ c) (Proc.devRef .tc main_arg6) = _
  after_results
theorem V3_arg16 (c : Dev nD) : V3 m ρ c main_arg16 = (m ((c : Thread nD τ).loc main_arg16)) := by
  show StableHlo.after hostOps1 (W2 m ρ c) (Proc.devRef .tc main_arg16) = _
  after_results
  refine (W2_of_ne m ρ c main_arg16 (by decide)).trans ?_
  show StableHlo.after hostOps0 (W0 m ρ c) (Proc.devRef .tc main_arg16) = _
  after_results
theorem V3_v7 (c : Dev nD) : V3 m ρ c main_v7 = extractStridedSlice S128x128 ![0, 0] (m ((c : Thread nD τ).loc main_arg14)) slices_S320x128_S128x128_0_0 := by
  show StableHlo.after hostOps1 (W2 m ρ c) (Proc.devRef .tc main_v7) = _
  after_results
  refine (W2_of_ne m ρ c main_v7 (by decide)).trans ?_
  show StableHlo.after hostOps0 (W0 m ρ c) (Proc.devRef .tc main_v7) = _
  after_results
theorem V3_v8 (c : Dev nD) : V3 m ρ c main_v8 = extractStridedSlice S128x128 ![128, 0] (m ((c : Thread nD τ).loc main_arg14)) slices_S320x128_S128x128_128_0 := by
  show StableHlo.after hostOps1 (W2 m ρ c) (Proc.devRef .tc main_v8) = _
  after_results
  refine (W2_of_ne m ρ c main_v8 (by decide)).trans ?_
  show StableHlo.after hostOps0 (W0 m ρ c) (Proc.devRef .tc main_v8) = _
  after_results
theorem V3_v9 (c : Dev nD) : V3 m ρ c main_v9 = extractStridedSlice S64x128 ![256, 0] (m ((c : Thread nD τ).loc main_arg14)) slices_S320x128_S64x128_256_0 := by
  show StableHlo.after hostOps1 (W2 m ρ c) (Proc.devRef .tc main_v9) = _
  after_results
  refine (W2_of_ne m ρ c main_v9 (by decide)).trans ?_
  show StableHlo.after hostOps0 (W0 m ρ c) (Proc.devRef .tc main_v9) = _
  after_results
theorem V3_v10 (c : Dev nD) : V3 m ρ c main_v10 = shapeCast S1x128 (m ((c : Thread nD τ).loc main_arg15)) shapeCasts_S128_S1x128 := by
  show StableHlo.after hostOps1 (W2 m ρ c) (Proc.devRef .tc main_v10) = _
  after_results
  refine (W2_of_ne m ρ c main_v10 (by decide)).trans ?_
  show StableHlo.after hostOps0 (W0 m ρ c) (Proc.devRef .tc main_v10) = _
  after_results
  rfl
theorem V3_v11 (c : Dev nD) : V3 m ρ c main_v11 = shapeCast S1x128 (m ((c : Thread nD τ).loc main_arg17)) shapeCasts_S128_S1x128 := by
  show StableHlo.after hostOps1 (W2 m ρ c) (Proc.devRef .tc main_v11) = _
  after_results
  refine (W2_of_ne m ρ c main_v11 (by decide)).trans ?_
  show StableHlo.after hostOps0 (W0 m ρ c) (Proc.devRef .tc main_v11) = _
  after_results
  rfl

/-- The aggregated messages the node region reads: the edge region's message array scattered onto the nodes. -/
theorem V3_v32 (c : Dev nD) : V3 m ρ c main_v32
    = scattered128 (m ((c : Thread nD τ).loc main_arg4)) ((dat0 (F := Ideal) (V1 m ρ) c).arrAt 15 cfg0.N) := by
  show StableHlo.after hostOps1 (W2 m ρ c) (Proc.devRef .tc main_v32) = _
  after_results
  rw [show W2 m ρ c (Proc.devRef .tc main_v26_0) = (dat0 (F := Ideal) (V1 m ρ) c).arrAt 15 cfg0.N from W2_arr m ρ c 15,
    show W2 m ρ c (Proc.devRef .tc main_arg4) = (m ((c : Thread nD τ).loc main_arg4)) from by
      refine (W2_of_ne m ρ c main_arg4 (by decide)).trans ?_
      show StableHlo.after hostOps0 (W0 m ρ c) (Proc.devRef .tc main_arg4) = _
      after_results]
  rfl

/-- The second result: the edge region's coordinate array scattered onto the nodes. -/
theorem W4_v29 (c : Dev nD) : W4 m ρ c (Proc.devRef .tc main_v29)
    = scattered3 (m ((c : Thread nD τ).loc main_arg3)) ((dat0 (F := Ideal) (V1 m ρ) c).arrAt 16 cfg0.N) := by
  refine (W4_of_ne m ρ c main_v29 (by decide)).trans ?_
  show StableHlo.after hostOps1 (W2 m ρ c) (Proc.devRef .tc main_v29) = _
  after_results
  rw [show W2 m ρ c (Proc.devRef .tc main_v26_1) = (dat0 (F := Ideal) (V1 m ρ) c).arrAt 16 cfg0.N from W2_arr m ρ c 16,
    show W2 m ρ c (Proc.devRef .tc main_arg3) = (m ((c : Thread nD τ).loc main_arg3)) from by
      refine (W2_of_ne m ρ c main_arg3 (by decide)).trans ?_
      show StableHlo.after hostOps0 (W0 m ρ c) (Proc.devRef .tc main_arg3) = _
      after_results]
  rfl

/-- The first result: the node region's output array. -/
theorem W4_v33 (c : Dev nD) : W4 m ρ c (Proc.devRef .tc main_v33) = (dat1 (F := Ideal) (V3 m ρ) c).arrAt 9 cfg1.N :=
  W4_arr m ρ c 9

end Cert.Egnn.Host

end
-- ==== Proof.BlockValues.lean ====
/-
  What one grid point of each kernel leaves in its output blocks, entry by entry, as the row functions of the
  specification: every entry of an output block depends on ONE row of each per-edge (per-node) input block.
-/
import proofs.«100746_j18837726560908_1_alg».proof.Proof.Gen.KernelIdeal.Frame
import proofs.«100746_j18837726560908_1_alg».proof.Proof.Spec
import Idealize.ShloMosaic.PureOps.Ideal.Laws
import Idealize.ShloMosaic.Lib.ValueIdx
import Idealize.ShloMosaic.Lib.Pipeline.Value

noncomputable section

namespace Cert.Egnn.Block

open Idealize.ShloMosaic Idealize.ShloMosaic.ValueIdx Cert.KernelIdeal Cert.KernelIdeal.Gen Cert.Egnn

/-! ### The contraction `[2000,128] × [128,128] → [2000,128]` read at an entry -/

theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into the zero accumulator at entry `(r, j)` is the row-by-column sum over the `128` contracted
    coordinates. -/
theorem matmulA_apply (a : FVec Ideal S2000x128 .bf16) (b : FVec Ideal S128x128 .bf16) (r : Fin 2000) (j : Fin 128) :
    matmul dot_S2000x128_S128x128_S2000x128_1_0_0_1_n_n none a b (constant (F := Ideal) S2000x128 .f32 0x00000000#32) (ix2 r j)
      = ∑ k : Fin 128, a (ix2 r k) * b (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k :=
    funext fun a => Fin.ext (by
      match a with
      | ⟨0, _⟩ => exact lhsA_0 _ _
      | ⟨1, _⟩ => exact (lhsA_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j :=
    funext fun a => Fin.ext (by
      match a with
      | ⟨0, _⟩ => exact (rhsA_0 _ _).trans hk
      | ⟨1, _⟩ => exact rhsA_1 _ _)
  rw [el, er]

/-! ### The contraction `[2000,64] × [64,128] → [2000,128]` read at an entry -/

theorem lhsB_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl
theorem lhsB_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhsB_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhsB_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

/-- The product into the zero accumulator at entry `(r, j)` is the row-by-column sum over the `64` contracted
    coordinates. -/
theorem matmulB_apply (a : FVec Ideal S2000x64 .bf16) (b : FVec Ideal S64x128 .bf16) (r : Fin 2000) (j : Fin 128) :
    matmul dot_S2000x64_S64x128_S2000x128_1_0_0_1_n_n none a b (constant (F := Ideal) S2000x128 .f32 0x00000000#32) (ix2 r j)
      = ∑ k : Fin 64, a (ix2 r k) * b (ix2 k j) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 r j) ((contrEquiv1 dot_S2000x64_S64x128_S2000x128_1_0_0_1_n_n 64 rfl rfl).symm k) = ix2 r k :=
    funext fun a => Fin.ext (by
      match a with
      | ⟨0, _⟩ => exact lhsB_0 _ _
      | ⟨1, _⟩ => exact (lhsB_1 _ _).trans hk)
  have er : dot_S2000x64_S64x128_S2000x128_1_0_0_1_n_n.rhsIdx (ix2 r j) ((contrEquiv1 dot_S2000x64_S64x128_S2000x128_1_0_0_1_n_n 64 rfl rfl).symm k) = ix2 k j :=
    funext fun a => Fin.ext (by
      match a with
      | ⟨0, _⟩ => exact (rhsB_0 _ _).trans hk
      | ⟨1, _⟩ => exact rhsB_1 _ _)
  rw [el, er]

/-! ### The contraction `[2000,128] × [128,1] → [2000,1]` read at an entry -/

theorem lhsC_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide),
    dif_pos (show (0 : Fin S2000x128.rank) ∈ dot_S2000x128_S128x1_S2000x1_1_0_0_1_n_n.lhsNonContracting by decide)]
  rfl
theorem lhsC_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhsC_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhsC_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide),
    dif_pos (show (1 : Fin S128x1.rank) ∈ dot_S2000x128_S128x1_S2000x1_1_0_0_1_n_n.rhsNonContracting by decide)]
  rfl

/-- The product into the zero accumulator at entry `(r, j)` is the row-by-column sum over the `128` contracted
    coordinates. -/
theorem matmulC_apply (a : FVec Ideal S2000x128 .bf16) (b : FVec Ideal S128x1 .bf16) (r : Fin 2000) (j : Fin 1) :
    matmul dot_S2000x128_S128x1_S2000x1_1_0_0_1_n_n none a b (constant (F := Ideal) S2000x1 .f32 0x00000000#32) (ix2 r j)
      = ∑ k : Fin 128, a (ix2 r k) * b (ix2 k j) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 r j) ((contrEquiv1 dot_S2000x128_S128x1_S2000x1_1_0_0_1_n_n 128 rfl rfl).symm k) = ix2 r k :=
    funext fun a => Fin.ext (by
      match a with
      | ⟨0, _⟩ => exact lhsC_0 _ _
      | ⟨1, _⟩ => exact (lhsC_1 _ _).trans hk)
  have er : dot_S2000x128_S128x1_S2000x1_1_0_0_1_n_n.rhsIdx (ix2 r j) ((contrEquiv1 dot_S2000x128_S128x1_S2000x1_1_0_0_1_n_n 128 rfl rfl).symm k) = ix2 k j :=
    funext fun a => Fin.ext (by
      match a with
      | ⟨0, _⟩ => exact (rhsC_0 _ _).trans hk
      | ⟨1, _⟩ => exact rhsC_1 _ _)
  rw [el, er]

/-! ### Broadcasts read at an entry -/

/-- A `[1, 128]` row broadcast over `2000` rows reads, at `(r, j)`, the row at `j`. -/
theorem bcRow_apply (v : FVec Ideal S1x128 .f32) (r : Fin 2000) (j : Fin 128) :
    broadcastTo S2000x128 v broadcasts_S1x128_S2000x128 (ix2 r j) = v (ix2 0 j) := by
  refine broadcastTo_apply v broadcasts_S1x128_S2000x128 (ix2 r j) (ix2 0 j) fun ax => ?_
  match ax with
  | ⟨0, _⟩ => rfl
  | ⟨1, _⟩ => rfl

/-- A `[2000, 1]` column broadcast over `128` columns reads, at `(r, j)`, the column at `r`. -/
theorem bcCol_apply (v : FVec Ideal S2000x1 .f32) (r : Fin 2000) (j : Fin 128) :
    broadcastTo S2000x128 v broadcasts_S2000x1_S2000x128 (ix2 r j) = v (ix2 r 0) := by
  refine broadcastTo_apply v broadcasts_S2000x1_S2000x128 (ix2 r j) (ix2 r 0) fun ax => ?_
  match ax with
  | ⟨0, _⟩ => rfl
  | ⟨1, _⟩ => rfl

/-- A `[2000, 1]` column broadcast over `3` columns reads, at `(r, d)`, the column at `r`. -/
theorem bcCol3_apply (v : FVec Ideal S2000x1 .f32) (r : Fin 2000) (d : Fin 3) :
    broadcastTo S2000x3 v broadcasts_S2000x1_S2000x3 (ix2 r d) = v (ix2 r 0) := by
  refine broadcastTo_apply v broadcasts_S2000x1_S2000x3 (ix2 r d) (ix2 r 0) fun ax => ?_
  match ax with
  | ⟨0, _⟩ => rfl
  | ⟨1, _⟩ => rfl

/-- The logistic of a vector at an entry is the extended reals' logistic of the entry. -/
theorem logistic_apply {s : Shape} {φ : FTy} (v : FVec Ideal s φ) (i : s.Idx) : logistic v i = Ideal.logistic (v i) := rfl

/-! ### Whole-buffer loads and stores -/

/-- The offsets of every rank-two whole-buffer rectangle are zero. -/
theorem hz : (![0, 0] : Fin 2 → Nat) = fun _ => 0 := by
  funext a
  match a with
  | ⟨0, _⟩ => rfl
  | ⟨1, _⟩ => rfl

/-! ### The payloads at an entry -/

/-- The second edge layer with its activation, over any activated first layer `v35`: the dense layer of row `r`
    of `v35`, then `x · σ(x)`. -/
theorem pay1_apply (v35 : FVec Ideal S2000x128 .bf16) (v36 : Vec Ideal S128x128 .f32) (v39 : Vec Ideal S1x128 .f32)
    (r : Fin 2000) (j : Fin 128) :
    k0_pay1 (F := Ideal) v35 v36 v39 (ix2 r j) = silu (dense (fun k => v35 (ix2 r k)) (mat v36) (row v39 0) j) := by
  unfold k0_pay1
  simp only [mulf_apply, addf_apply, logistic_apply, shapeCast_self, matmulA_apply, truncf_apply, bcRow_apply]
  rfl

/-- The first edge layer with its activation: the three products, the distance's outer product and the bias, added in
    the specification's order, then `x · σ(x)`. -/
theorem pay3_apply (v0 v3 : Vec Ideal S2000x128 .f32) (v6 : Vec Ideal S2000x64 .f32) (v8 v11 : Vec Ideal S128x128 .f32)
    (v14 : Vec Ideal S64x128 .f32) (v17 : Vec Ideal S2000x1 .f32) (v18 v29 : Vec Ideal S1x128 .f32)
    (r : Fin 2000) (j : Fin 128) :
    k0_pay3 (F := Ideal) v0 v3 v6 v8 v11 v14 v17 v18 v29 (ix2 r j)
      = silu (edgePre (row v0 r) (row v3 r) (v17 (ix2 r 0)) (row v6 r) (mat v8) (mat v11) (row v18 0) (mat v14)
          (row v29 0) j) := by
  unfold k0_pay3
  simp only [mulf_apply, addf_apply, logistic_apply, shapeCast_self, matmulA_apply, matmulB_apply, truncf_apply,
    bcRow_apply, bcCol_apply]
  rfl

/-- The coordinate block: the displacement times the projection of the activated dense layer of the message row. -/
theorem pay2_apply (v35 : FVec Ideal S2000x128 .bf16) (v36 : Vec Ideal S128x128 .f32) (v39 : Vec Ideal S1x128 .f32)
    (v46 : Vec Ideal S128x128 .f32) (v49 : Vec Ideal S1x128 .f32) (v56 : Vec Ideal S128x1 .f32)
    (v59 : Vec Ideal S2000x3 .f32) (r : Fin 2000) (d : Fin 3) :
    k0_pay2 (F := Ideal) v35 v36 v39 v46 v49 v56 v59 (ix2 r d)
      = v59 (ix2 r d) * coordW (fun k => k0_pay1 (F := Ideal) v35 v36 v39 (ix2 r k)) (mat v46) (row v49 0)
          (fun k => v56 (ix2 k 0)) := by
  unfold k0_pay2
  generalize k0_pay1 (F := Ideal) v35 v36 v39 = m
  simp only [mulf_apply, addf_apply, logistic_apply, shapeCast_self, matmulA_apply, matmulC_apply, truncf_apply,
    bcRow_apply, bcCol3_apply]
  rfl

/-- The node block: the old feature plus the second dense layer of the activated first layer. -/
theorem k1_pay1_apply (v0 v2 : Vec Ideal S2000x128 .f32) (v5 : Vec Ideal S2000x64 .f32) (v7 v10 : Vec Ideal S128x128 .f32)
    (v13 : Vec Ideal S64x128 .f32) (v21 : Vec Ideal S1x128 .f32) (v28 : Vec Ideal S128x128 .f32)
    (v31 : Vec Ideal S1x128 .f32) (r : Fin 2000) (j : Fin 128) :
    k1_pay1 (F := Ideal) v0 v2 v5 v7 v10 v13 v21 v28 v31 (ix2 r j)
      = nodeOut (v0 (ix2 r j)) (nodePre (row v0 r) (row v2 r) (row v5 r) (mat v7) (mat v10) (mat v13) (row v21 0))
          (mat v28) (row v31 0) j := by
  unfold k1_pay1
  simp only [mulf_apply, addf_apply, logistic_apply, shapeCast_self, matmulA_apply, matmulB_apply, truncf_apply,
    bcRow_apply]
  rfl

/-! ### The three output blocks -/

/-- The edge kernel's message block at row `r`, column `j`. -/
theorem out0_15_apply (x0 x1 : Vec Ideal S2000x128 .f32) (x2 : Vec Ideal S2000x1 .f32) (x3 : Vec Ideal S2000x64 .f32)
    (x4 : Vec Ideal S2000x3 .f32) (x5 x6 : Vec Ideal S128x128 .f32) (x7 : Vec Ideal S1x128 .f32) (x8 : Vec Ideal S64x128 .f32)
    (x9 : Vec Ideal S1x128 .f32) (x10 : Vec Ideal S128x128 .f32) (x11 : Vec Ideal S1x128 .f32) (x12 : Vec Ideal S128x128 .f32)
    (x13 : Vec Ideal S1x128 .f32) (x14 : Vec Ideal S128x1 .f32) (r : Fin 2000) (j : Fin 128) :
    out0_15 (F := Ideal) x0 x1 x2 x3 x4 x5 x6 x7 x8 x9 x10 x11 x12 x13 x14 (ix2 r j)
      = msgOf (edgePre (row x0 r) (row x1 r) (x2 (ix2 r 0)) (row x3 r) (mat x5) (mat x6) (row x7 0) (mat x8) (row x9 0))
          (mat x10) (row x11 0) j := by
  unfold out0_15
  rw [View.canon_unit_zero hz]
  simp only [View.ld_unit_zero (S := S2000x128) hz, View.ld_unit_zero (S := S2000x64) hz,
    View.ld_unit_zero (S := S128x128) hz, View.ld_unit_zero (S := S64x128) hz, View.ld_unit_zero (S := S2000x1) hz,
    View.ld_unit_zero (S := S1x128) hz]
  rw [pay1_apply]
  simp only [pay3_apply]
  rfl

/-- The edge kernel's coordinate block at row `r`, component `d`. -/
theorem out0_16_apply (x0 x1 : Vec Ideal S2000x128 .f32) (x2 : Vec Ideal S2000x1 .f32) (x3 : Vec Ideal S2000x64 .f32)
    (x4 : Vec Ideal S2000x3 .f32) (x5 x6 : Vec Ideal S128x128 .f32) (x7 : Vec Ideal S1x128 .f32) (x8 : Vec Ideal S64x128 .f32)
    (x9 : Vec Ideal S1x128 .f32) (x10 : Vec Ideal S128x128 .f32) (x11 : Vec Ideal S1x128 .f32) (x12 : Vec Ideal S128x128 .f32)
    (x13 : Vec Ideal S1x128 .f32) (x14 : Vec Ideal S128x1 .f32) (r : Fin 2000) (d : Fin 3) :
    out0_16 (F := Ideal) x0 x1 x2 x3 x4 x5 x6 x7 x8 x9 x10 x11 x12 x13 x14 (ix2 r d)
      = x4 (ix2 r d) * coordW (msgOf (edgePre (row x0 r) (row x1 r) (x2 (ix2 r 0)) (row x3 r) (mat x5) (mat x6) (row x7 0)
          (mat x8) (row x9 0)) (mat x10) (row x11 0)) (mat x12) (row x13 0) (fun k => x14 (ix2 k 0)) := by
  unfold out0_16
  rw [View.canon_unit_zero hz]
  simp only [View.ld_unit_zero (S := S2000x128) hz, View.ld_unit_zero (S := S2000x64) hz,
    View.ld_unit_zero (S := S128x128) hz, View.ld_unit_zero (S := S64x128) hz, View.ld_unit_zero (S := S2000x1) hz,
    View.ld_unit_zero (S := S1x128) hz, View.ld_unit_zero (S := S128x1) hz, View.ld_unit_zero (S := S2000x3) hz]
  rw [pay2_apply]
  simp only [pay1_apply, pay3_apply]
  rfl

/-- The node kernel's output block at row `r`, column `j`. -/
theorem out1_9_apply (x0 x1 : Vec Ideal S2000x128 .f32) (x2 : Vec Ideal S2000x64 .f32) (x3 x4 : Vec Ideal S128x128 .f32)
    (x5 : Vec Ideal S64x128 .f32) (x6 : Vec Ideal S1x128 .f32) (x7 : Vec Ideal S128x128 .f32) (x8 : Vec Ideal S1x128 .f32)
    (r : Fin 2000) (j : Fin 128) :
    out1_9 (F := Ideal) x0 x1 x2 x3 x4 x5 x6 x7 x8 (ix2 r j)
      = nodeOut (x0 (ix2 r j)) (nodePre (row x0 r) (row x1 r) (row x2 r) (mat x3) (mat x4) (mat x5) (row x6 0))
          (mat x7) (row x8 0) j := by
  unfold out1_9
  rw [View.canon_unit_zero hz]
  simp only [View.ld_unit_zero (S := S2000x128) hz, View.ld_unit_zero (S := S2000x64) hz,
    View.ld_unit_zero (S := S128x128) hz, View.ld_unit_zero (S := S64x128) hz, View.ld_unit_zero (S := S1x128) hz]
  exact k1_pay1_apply x0 x1 x2 x3 x4 x5 x6 x7 x8 r j

end Cert.Egnn.Block

end
-- ==== Proof.KernelArrays.lean ====
/-
  From blocks to arrays: each output array of a kernel region after its run, as ONE function of the arrays the
  region found on entry.  Stated at the region's entry contents `V` as a parameter, like the generated frame.
  Point `t` writes rows `2000 t … 2000 t + 1999`; the blocks tile the array, so every index is covered.
-/
import proofs.«100746_j18837726560908_1_alg».proof.Proof.Gen.KernelIdeal.Frame
import proofs.«100746_j18837726560908_1_alg».proof.Proof.Spec
import proofs.«100746_j18837726560908_1_alg».proof.Proof.BlockValues
import Idealize.ShloMosaic.Lib.Pipeline.Value
import Idealize.ShloMosaic.Lib.ValueIdx

set_option maxRecDepth 16384

noncomputable section

namespace Cert.Egnn.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Egnn

variable (V : (c : Dev nD) → (b : Ref sig .tc) → Buf (Elt Ideal) ((c : Thread nD τ).loc b))

/-! ## Indices -/

/-- Two indices of a rank-two array are equal when their coordinates are. -/
theorem idx2_ext {n0 n1 : ℕ} {i i' : (⟨2, ![n0, n1]⟩ : Shape).Idx} (h0 : (i 0).val = (i' 0).val)
    (h1 : (i 1).val = (i' 1).val) : i = i' :=
  funext fun a => Fin.ext (match a with | ⟨0, _⟩ => h0 | ⟨1, _⟩ => h1)

/-- Block number `t` of 2000 rows starts at row `2000 t`. -/
theorem row_off {x t r : ℕ} (h : x = t) : x * 2000 + 1 * r = 2000 * t + r := by subst h; omega

/-- Block number 0 starts at 0, whatever the block's size. -/
theorem zero_off {x K k : ℕ} (h : x = 0) : x * K + 1 * k = k := by subst h; omega

/-! ## The edge region: 320 points, point `t` holding rows `2000 t … 2000 t + 1999` of every per-edge array -/

theorem lt0 (t : Fin cfg0.N) : t.val < 320 := lt_of_lt_of_eq t.isLt N_0

/-- The grid has one axis, so a point's coordinate is its number. -/
theorem coord0 (t : Fin cfg0.N) : (BitVec.ofNat 32 (grid0.coords t 0).val).toNat = t.val := by
  show (BitVec.ofNat 32 (t.val / grid0.stride 0 % 320)).toNat = t.val
  have h := lt0 t
  have hs : grid0.stride 0 = 1 := by decide
  rw [hs, BitVec.toNat_ofNat]
  omega

/-- Row `r` of point `t`'s block is edge `2000 t + r`. -/
def edgeRow (t : Fin cfg0.N) (r : Fin 2000) : Fin 640000 := ⟨2000 * t.val + r.val, by have := lt0 t; omega⟩

/-! ### Where each block sits in its array -/

theorem hsrc_emb (t : Fin cfg0.N) (r : Fin 2000) (k : Fin 128) :
    ((cfg0.win 0).blk t).view.emb (ix2 r k) = (ix2 (edgeRow t r) k : S640000x128.Idx) :=
  idx2_ext (show win0_0.index t (0 : Fin 2) * 2000 + 1 * r.val = 2000 * t.val + r.val from row_off (coord0 t))
    (show win0_0.index t (1 : Fin 2) * 128 + 1 * k.val = k.val from zero_off rfl)

theorem hdst_emb (t : Fin cfg0.N) (r : Fin 2000) (k : Fin 128) :
    ((cfg0.win 1).blk t).view.emb (ix2 r k) = (ix2 (edgeRow t r) k : S640000x128.Idx) :=
  idx2_ext (show win0_1.index t (0 : Fin 2) * 2000 + 1 * r.val = 2000 * t.val + r.val from row_off (coord0 t))
    (show win0_1.index t (1 : Fin 2) * 128 + 1 * k.val = k.val from zero_off rfl)

theorem dist_emb (t : Fin cfg0.N) (r : Fin 2000) (k : Fin 1) :
    ((cfg0.win 2).blk t).view.emb (ix2 r k) = (ix2 (edgeRow t r) k : S640000x1.Idx) :=
  idx2_ext (show win0_2.index t (0 : Fin 2) * 2000 + 1 * r.val = 2000 * t.val + r.val from row_off (coord0 t))
    (show win0_2.index t (1 : Fin 2) * 1 + 1 * k.val = k.val from zero_off rfl)

theorem temb_emb (t : Fin cfg0.N) (r : Fin 2000) (k : Fin 64) :
    ((cfg0.win 3).blk t).view.emb (ix2 r k) = (ix2 (edgeRow t r) k : S640000x64.Idx) :=
  idx2_ext (show win0_3.index t (0 : Fin 2) * 2000 + 1 * r.val = 2000 * t.val + r.val from row_off (coord0 t))
    (show win0_3.index t (1 : Fin 2) * 64 + 1 * k.val = k.val from zero_off rfl)

theorem diff_emb (t : Fin cfg0.N) (r : Fin 2000) (k : Fin 3) :
    ((cfg0.win 4).blk t).view.emb (ix2 r k) = (ix2 (edgeRow t r) k : S640000x3.Idx) :=
  idx2_ext (show win0_4.index t (0 : Fin 2) * 2000 + 1 * r.val = 2000 * t.val + r.val from row_off (coord0 t))
    (show win0_4.index t (1 : Fin 2) * 3 + 1 * k.val = k.val from zero_off rfl)

theorem msg_emb (t : Fin cfg0.N) (r : Fin 2000) (k : Fin 128) :
    ((cfg0.win 15).blk t).view.emb (ix2 r k) = (ix2 (edgeRow t r) k : S640000x128.Idx) :=
  idx2_ext (show win0_15.index t (0 : Fin 2) * 2000 + 1 * r.val = 2000 * t.val + r.val from row_off (coord0 t))
    (show win0_15.index t (1 : Fin 2) * 128 + 1 * k.val = k.val from zero_off rfl)

theorem cupd_emb (t : Fin cfg0.N) (r : Fin 2000) (k : Fin 3) :
    ((cfg0.win 16).blk t).view.emb (ix2 r k) = (ix2 (edgeRow t r) k : S640000x3.Idx) :=
  idx2_ext (show win0_16.index t (0 : Fin 2) * 2000 + 1 * r.val = 2000 * t.val + r.val from row_off (coord0 t))
    (show win0_16.index t (1 : Fin 2) * 3 + 1 * k.val = k.val from zero_off rfl)

/-! ### The per-edge input blocks, entry by entry -/

theorem hsrc_blk (c : Dev nD) (t : Fin cfg0.N) (r : Fin 2000) (k : Fin 128) :
    (iblk0 V c 0 t : Vec Ideal S2000x128 .f32) (ix2 r k) = (V c main_v18 : S640000x128.Idx → EReal) (ix2 (edgeRow t r) k) :=
  congrArg (V c main_v18 : S640000x128.Idx → EReal) (hsrc_emb t r k)

theorem hdst_blk (c : Dev nD) (t : Fin cfg0.N) (r : Fin 2000) (k : Fin 128) :
    (iblk0 V c 1 t : Vec Ideal S2000x128 .f32) (ix2 r k) = (V c main_v25 : S640000x128.Idx → EReal) (ix2 (edgeRow t r) k) :=
  congrArg (V c main_v25 : S640000x128.Idx → EReal) (hdst_emb t r k)

theorem dist_blk (c : Dev nD) (t : Fin cfg0.N) (r : Fin 2000) (k : Fin 1) :
    (iblk0 V c 2 t : Vec Ideal S2000x1 .f32) (ix2 r k) = (V c main_arg2 : S640000x1.Idx → EReal) (ix2 (edgeRow t r) k) :=
  congrArg (V c main_arg2 : S640000x1.Idx → EReal) (dist_emb t r k)

theorem temb_blk (c : Dev nD) (t : Fin cfg0.N) (r : Fin 2000) (k : Fin 64) :
    (iblk0 V c 3 t : Vec Ideal S2000x64 .f32) (ix2 r k) = (V c main_arg5 : S640000x64.Idx → EReal) (ix2 (edgeRow t r) k) :=
  congrArg (V c main_arg5 : S640000x64.Idx → EReal) (temb_emb t r k)

theorem diff_blk (c : Dev nD) (t : Fin cfg0.N) (r : Fin 2000) (k : Fin 3) :
    (iblk0 V c 4 t : Vec Ideal S2000x3 .f32) (ix2 r k) = (V c main_arg1 : S640000x3.Idx → EReal) (ix2 (edgeRow t r) k) :=
  congrArg (V c main_arg1 : S640000x3.Idx → EReal) (diff_emb t r k)

/-! ### The resident weight blocks are the whole arrays -/

theorem w1s_blk (c : Dev nD) (t : Fin cfg0.N) : (iblk0 V c 5 t : Vec Ideal S128x128 .f32) = (V c main_v0 : S128x128.Idx → EReal) :=
  funext fun j => congrArg (V c main_v0 : S128x128.Idx → EReal) (idx2_ext
    (show win0_5.index t (0 : Fin 2) * 128 + 1 * (j 0).val = (j 0).val from zero_off rfl)
    (show win0_5.index t (1 : Fin 2) * 128 + 1 * (j 1).val = (j 1).val from zero_off rfl))

theorem w1d_blk (c : Dev nD) (t : Fin cfg0.N) : (iblk0 V c 6 t : Vec Ideal S128x128 .f32) = (V c main_v1 : S128x128.Idx → EReal) :=
  funext fun j => congrArg (V c main_v1 : S128x128.Idx → EReal) (idx2_ext
    (show win0_6.index t (0 : Fin 2) * 128 + 1 * (j 0).val = (j 0).val from zero_off rfl)
    (show win0_6.index t (1 : Fin 2) * 128 + 1 * (j 1).val = (j 1).val from zero_off rfl))

theorem w1r_blk (c : Dev nD) (t : Fin cfg0.N) : (iblk0 V c 7 t : Vec Ideal S1x128 .f32) = (V c main_v2 : S1x128.Idx → EReal) :=
  funext fun j => congrArg (V c main_v2 : S1x128.Idx → EReal) (idx2_ext
    (show win0_7.index t (0 : Fin 2) * 1 + 1 * (j 0).val = (j 0).val from zero_off rfl)
    (show win0_7.index t (1 : Fin 2) * 128 + 1 * (j 1).val = (j 1).val from zero_off rfl))

theorem w1t_blk (c : Dev nD) (t : Fin cfg0.N) : (iblk0 V c 8 t : Vec Ideal S64x128 .f32) = (V c main_v3 : S64x128.Idx → EReal) :=
  funext fun j => congrArg (V c main_v3 : S64x128.Idx → EReal) (idx2_ext
    (show win0_8.index t (0 : Fin 2) * 64 + 1 * (j 0).val = (j 0).val from zero_off rfl)
    (show win0_8.index t (1 : Fin 2) * 128 + 1 * (j 1).val = (j 1).val from zero_off rfl))

theorem b1_blk (c : Dev nD) (t : Fin cfg0.N) : (iblk0 V c 9 t : Vec Ideal S1x128 .f32) = (V c main_v4 : S1x128.Idx → EReal) :=
  funext fun j => congrArg (V c main_v4 : S1x128.Idx → EReal) (idx2_ext
    (show win0_9.index t (0 : Fin 2) * 1 + 1 * (j 0).val = (j 0).val from zero_off rfl)
    (show win0_9.index t (1 : Fin 2) * 128 + 1 * (j 1).val = (j 1).val from zero_off rfl))

theorem w2_blk (c : Dev nD) (t : Fin cfg0.N) : (iblk0 V c 10 t : Vec Ideal S128x128 .f32) = (V c main_arg9 : S128x128.Idx → EReal) :=
  funext fun j => congrArg (V c main_arg9 : S128x128.Idx → EReal) (idx2_ext
    (show win0_10.index t (0 : Fin 2) * 128 + 1 * (j 0).val = (j 0).val from zero_off rfl)
    (show win0_10.index t (1 : Fin 2) * 128 + 1 * (j 1).val = (j 1).val from zero_off rfl))

theorem b2_blk (c : Dev nD) (t : Fin cfg0.N) : (iblk0 V c 11 t : Vec Ideal S1x128 .f32) = (V c main_v5 : S1x128.Idx → EReal) :=
  funext fun j => congrArg (V c main_v5 : S1x128.Idx → EReal) (idx2_ext
    (show win0_11.index t (0 : Fin 2) * 1 + 1 * (j 0).val = (j 0).val from zero_off rfl)
    (show win0_11.index t (1 : Fin 2) * 128 + 1 * (j 1).val = (j 1).val from zero_off rfl))

theorem cw1_blk (c : Dev nD) (t : Fin cfg0.N) : (iblk0 V c 12 t : Vec Ideal S128x128 .f32) = (V c main_arg11 : S128x128.Idx → EReal) :=
  funext fun j => congrArg (V c main_arg11 : S128x128.Idx → EReal) (idx2_ext
    (show win0_12.index t (0 : Fin 2) * 128 + 1 * (j 0).val = (j 0).val from zero_off rfl)
    (show win0_12.index t (1 : Fin 2) * 128 + 1 * (j 1).val = (j 1).val from zero_off rfl))

theorem cb1_blk (c : Dev nD) (t : Fin cfg0.N) : (iblk0 V c 13 t : Vec Ideal S1x128 .f32) = (V c main_v6 : S1x128.Idx → EReal) :=
  funext fun j => congrArg (V c main_v6 : S1x128.Idx → EReal) (idx2_ext
    (show win0_13.index t (0 : Fin 2) * 1 + 1 * (j 0).val = (j 0).val from zero_off rfl)
    (show win0_13.index t (1 : Fin 2) * 128 + 1 * (j 1).val = (j 1).val from zero_off rfl))

theorem cw2_blk (c : Dev nD) (t : Fin cfg0.N) : (iblk0 V c 14 t : Vec Ideal S128x1 .f32) = (V c main_arg13 : S128x1.Idx → EReal) :=
  funext fun j => congrArg (V c main_arg13 : S128x1.Idx → EReal) (idx2_ext
    (show win0_14.index t (0 : Fin 2) * 128 + 1 * (j 0).val = (j 0).val from zero_off rfl)
    (show win0_14.index t (1 : Fin 2) * 1 + 1 * (j 1).val = (j 1).val from zero_off rfl))

/-! ### What the two arrays end holding -/

/-- Every edge's message, from row `e` of each per-edge array. -/
def msgA (c : Dev nD) : S640000x128.Idx → EReal := fun i =>
  msgOf (edgePre (row (V c main_v18) (i 0)) (row (V c main_v25) (i 0)) (V c main_arg2 (ix2 (i 0) 0)) (row (V c main_arg5) (i 0))
      (mat (V c main_v0)) (mat (V c main_v1)) (row (V c main_v2) 0) (mat (V c main_v3)) (row (V c main_v4) 0))
    (mat (V c main_arg9)) (row (V c main_v5) 0) (i 1)

/-- Every edge's coordinate contribution. -/
def cupdA (c : Dev nD) : S640000x3.Idx → EReal := fun i =>
  (id (V c main_arg1 i) : EReal) * coordW (msgOf (edgePre (row (V c main_v18) (i 0)) (row (V c main_v25) (i 0)) (V c main_arg2 (ix2 (i 0) 0))
      (row (V c main_arg5) (i 0)) (mat (V c main_v0)) (mat (V c main_v1)) (row (V c main_v2) 0) (mat (V c main_v3))
      (row (V c main_v4) 0)) (mat (V c main_arg9)) (row (V c main_v5) 0))
    (mat (V c main_arg11)) (row (V c main_v6) 0) (fun k => V c main_arg13 (ix2 k 0))

/-- One entry of a message block whose per-edge rows are rows `g` of four arrays. -/
theorem msg_entry (x0 x1 : Vec Ideal S2000x128 .f32) (x2 : Vec Ideal S2000x1 .f32) (x3 : Vec Ideal S2000x64 .f32)
    (x4 : Vec Ideal S2000x3 .f32) (x5 x6 : Vec Ideal S128x128 .f32) (x7 : Vec Ideal S1x128 .f32) (x8 : Vec Ideal S64x128 .f32)
    (x9 : Vec Ideal S1x128 .f32) (x10 : Vec Ideal S128x128 .f32) (x11 : Vec Ideal S1x128 .f32) (x12 : Vec Ideal S128x128 .f32)
    (x13 : Vec Ideal S1x128 .f32) (x14 : Vec Ideal S128x1 .f32)
    (A0 A1 : S640000x128.Idx → EReal) (A2 : S640000x1.Idx → EReal) (A3 : S640000x64.Idx → EReal)
    (g : Fin 640000) (r : Fin 2000) (q : Fin 128)
    (h0 : ∀ k, x0 (ix2 r k) = A0 (ix2 g k)) (h1 : ∀ k, x1 (ix2 r k) = A1 (ix2 g k))
    (h2 : ∀ k, x2 (ix2 r k) = A2 (ix2 g k)) (h3 : ∀ k, x3 (ix2 r k) = A3 (ix2 g k)) :
    out0_15 (F := Ideal) x0 x1 x2 x3 x4 x5 x6 x7 x8 x9 x10 x11 x12 x13 x14 (ix2 r q)
      = msgOf (edgePre (row A0 g) (row A1 g) (A2 (ix2 g 0)) (row A3 g) (mat x5) (mat x6) (row x7 0) (mat x8) (row x9 0))
          (mat x10) (row x11 0) q := by
  rw [Block.out0_15_apply]
  have e0 : row x0 r = row A0 g := funext h0
  have e1 : row x1 r = row A1 g := funext h1
  have e3 : row x3 r = row A3 g := funext h3
  rw [e0, e1, e3, h2 0]

/-- One entry of a coordinate block likewise. -/
theorem cupd_entry (x0 x1 : Vec Ideal S2000x128 .f32) (x2 : Vec Ideal S2000x1 .f32) (x3 : Vec Ideal S2000x64 .f32)
    (x4 : Vec Ideal S2000x3 .f32) (x5 x6 : Vec Ideal S128x128 .f32) (x7 : Vec Ideal S1x128 .f32) (x8 : Vec Ideal S64x128 .f32)
    (x9 : Vec Ideal S1x128 .f32) (x10 : Vec Ideal S128x128 .f32) (x11 : Vec Ideal S1x128 .f32) (x12 : Vec Ideal S128x128 .f32)
    (x13 : Vec Ideal S1x128 .f32) (x14 : Vec Ideal S128x1 .f32)
    (A0 A1 : S640000x128.Idx → EReal) (A2 : S640000x1.Idx → EReal) (A3 : S640000x64.Idx → EReal) (A4 : S640000x3.Idx → EReal)
    (g : Fin 640000) (r : Fin 2000) (d : Fin 3)
    (h0 : ∀ k, x0 (ix2 r k) = A0 (ix2 g k)) (h1 : ∀ k, x1 (ix2 r k) = A1 (ix2 g k))
    (h2 : ∀ k, x2 (ix2 r k) = A2 (ix2 g k)) (h3 : ∀ k, x3 (ix2 r k) = A3 (ix2 g k))
    (h4 : ∀ k, x4 (ix2 r k) = A4 (ix2 g k)) :
    out0_16 (F := Ideal) x0 x1 x2 x3 x4 x5 x6 x7 x8 x9 x10 x11 x12 x13 x14 (ix2 r d)
      = A4 (ix2 g d) * coordW (msgOf (edgePre (row A0 g) (row A1 g) (A2 (ix2 g 0)) (row A3 g) (mat x5) (mat x6) (row x7 0)
          (mat x8) (row x9 0)) (mat x10) (row x11 0)) (mat x12) (row x13 0) (fun k => x14 (ix2 k 0)) := by
  rw [Block.out0_16_apply]
  have e0 : row x0 r = row A0 g := funext h0
  have e1 : row x1 r = row A1 g := funext h1
  have e3 : row x3 r = row A3 g := funext h3
  rw [e0, e1, e3, h2 0, h4 d]

/-- What point `t` writes back of the messages is its block of `msgA`. -/
theorem msg_flushed (c : Dev nD) (t : Fin cfg0.N) :
    (dat0 (F := Ideal) V c).flushed 15 t = ((cfg0.win 15).blk t).view.read (Elt Ideal) (msgA V c) := by
  show (cfg0.win 15).cut (grid0.coords t) ((dat0 V c).after 15 t) = _
  rw [after0_15]
  funext j
  obtain ⟨r, q, rfl⟩ : ∃ (r : Fin 2000) (q : Fin 128), j = ix2 r q := ⟨j 0, j 1, eq_ix2 j⟩
  refine (msg_entry (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (iblk0 V c 13 t) (iblk0 V c 14 t) (V c main_v18) (V c main_v25) (V c main_arg2) (V c main_arg5) (edgeRow t r) r q
    (hsrc_blk V c t r) (hdst_blk V c t r) (dist_blk V c t r) (temb_blk V c t r)).trans ?_
  rw [w1s_blk, w1d_blk, w1r_blk, w1t_blk, b1_blk, w2_blk, b2_blk]
  show _ = msgA V c (((cfg0.win 15).blk t).view.emb (ix2 r q))
  rw [msg_emb]
  rfl

/-- What point `t` writes back of the coordinate contributions is its block of `cupdA`. -/
theorem cupd_flushed (c : Dev nD) (t : Fin cfg0.N) :
    (dat0 (F := Ideal) V c).flushed 16 t = ((cfg0.win 16).blk t).view.read (Elt Ideal) (cupdA V c) := by
  show (cfg0.win 16).cut (grid0.coords t) ((dat0 V c).after 16 t) = _
  rw [after0_16]
  funext j
  obtain ⟨r, d, rfl⟩ : ∃ (r : Fin 2000) (d : Fin 3), j = ix2 r d := ⟨j 0, j 1, eq_ix2 j⟩
  refine (cupd_entry (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (iblk0 V c 13 t) (iblk0 V c 14 t) (V c main_v18) (V c main_v25) (V c main_arg2) (V c main_arg5) (V c main_arg1)
    (edgeRow t r) r d (hsrc_blk V c t r) (hdst_blk V c t r) (dist_blk V c t r) (temb_blk V c t r) (diff_blk V c t r)).trans ?_
  rw [w1s_blk, w1d_blk, w1r_blk, w1t_blk, b1_blk, w2_blk, b2_blk, cw1_blk, cb1_blk, cw2_blk]
  show _ = cupdA V c (((cfg0.win 16).blk t).view.emb (ix2 r d))
  rw [cupd_emb]
  rfl

/-! ### The blocks tile the arrays: edge `e` is in point `e / 2000`'s block -/

theorem msg_mem_blk (t : Fin cfg0.N) (i : S640000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v26_0).slice (win0_15.rect t)).set ↔ _
  rw [View.set_slice_whole, Rect.mem_set_unit]
  exact Iff.rfl

theorem cupd_mem_blk (t : Fin cfg0.N) (i : S640000x3.Idx) :
    i ∈ ((cfg0.win 16).blk t).view.set ↔ ∀ a : Fin 2, win0_16.index t a * S2000x3.size a ≤ (i a).val
      ∧ (i a).val < win0_16.index t a * S2000x3.size a + S2000x3.size a := by
  show i ∈ ((View.whole main_v26_1).slice (win0_16.rect t)).set ↔ _
  rw [View.set_slice_whole, Rect.mem_set_unit]
  exact Iff.rfl

/-- The point whose block holds edge `e`. -/
def edgePoint (e : Fin 640000) : Fin cfg0.N := ⟨e.val / 2000, lt_of_lt_of_eq (by have := e.isLt; omega) N_0.symm⟩

theorem msg_covered (i : S640000x128.Idx) :
    ∃ t : Fin cfg0.N, (cfg0.win 15).flush t = true ∧ i ∈ ((cfg0.win 15).blk t).view.set := by
  have h0 : (i 0).val < 640000 := (i 0).isLt
  have h1 : (i 1).val < 128 := (i 1).isLt
  refine ⟨edgePoint (i 0), flush0_15 _, (msg_mem_blk _ i).mpr fun a => ?_⟩
  match a with
  | ⟨0, _⟩ =>
    show win0_15.index (edgePoint (i 0)) (0 : Fin 2) * 2000 ≤ (i 0).val
      ∧ (i 0).val < win0_15.index (edgePoint (i 0)) (0 : Fin 2) * 2000 + 2000
    rw [show win0_15.index (edgePoint (i 0)) (0 : Fin 2) = (i 0).val / 2000 from coord0 (edgePoint (i 0))]
    omega
  | ⟨1, _⟩ =>
    show win0_15.index (edgePoint (i 0)) (1 : Fin 2) * 128 ≤ (i 1).val
      ∧ (i 1).val < win0_15.index (edgePoint (i 0)) (1 : Fin 2) * 128 + 128
    rw [show win0_15.index (edgePoint (i 0)) (1 : Fin 2) = 0 from rfl]
    omega

theorem cupd_covered (i : S640000x3.Idx) :
    ∃ t : Fin cfg0.N, (cfg0.win 16).flush t = true ∧ i ∈ ((cfg0.win 16).blk t).view.set := by
  have h0 : (i 0).val < 640000 := (i 0).isLt
  have h1 : (i 1).val < 3 := (i 1).isLt
  refine ⟨edgePoint (i 0), flush0_16 _, (cupd_mem_blk _ i).mpr fun a => ?_⟩
  match a with
  | ⟨0, _⟩ =>
    show win0_16.index (edgePoint (i 0)) (0 : Fin 2) * 2000 ≤ (i 0).val
      ∧ (i 0).val < win0_16.index (edgePoint (i 0)) (0 : Fin 2) * 2000 + 2000
    rw [show win0_16.index (edgePoint (i 0)) (0 : Fin 2) = (i 0).val / 2000 from coord0 (edgePoint (i 0))]
    omega
  | ⟨1, _⟩ =>
    show win0_16.index (edgePoint (i 0)) (1 : Fin 2) * 3 ≤ (i 1).val
      ∧ (i 1).val < win0_16.index (edgePoint (i 0)) (1 : Fin 2) * 3 + 3
    rw [show win0_16.index (edgePoint (i 0)) (1 : Fin 2) = 0 from rfl]
    omega

/-- The message array after the edge region. -/
theorem arr0_15 (c : Dev nD) :
    (dat0 (F := Ideal) V c).arrAt 15 cfg0.N = fun i : S640000x128.Idx =>
      msgOf (edgePre (row (V c main_v18) (i 0)) (row (V c main_v25) (i 0)) (V c main_arg2 (ix2 (i 0) 0)) (row (V c main_arg5) (i 0))
          (mat (V c main_v0)) (mat (V c main_v1)) (row (V c main_v2) 0) (mat (V c main_v3)) (row (V c main_v4) 0))
        (mat (V c main_arg9)) (row (V c main_v5) 0) (i 1) :=
  (dat0 (F := Ideal) V c).arrAt_eq_of_cover 15 (msgA V c) (fun t _ => msg_flushed V c t) msg_covered

/-- The coordinate-contribution array after the edge region. -/
theorem arr0_16 (c : Dev nD) :
    (dat0 (F := Ideal) V c).arrAt 16 cfg0.N = fun i : S640000x3.Idx =>
      (id (V c main_arg1 i) : EReal) * coordW (msgOf (edgePre (row (V c main_v18) (i 0)) (row (V c main_v25) (i 0)) (V c main_arg2 (ix2 (i 0) 0))
          (row (V c main_arg5) (i 0)) (mat (V c main_v0)) (mat (V c main_v1)) (row (V c main_v2) 0) (mat (V c main_v3))
          (row (V c main_v4) 0)) (mat (V c main_arg9)) (row (V c main_v5) 0))
        (mat (V c main_arg11)) (row (V c main_v6) 0) (fun k => V c main_arg13 (ix2 k 0)) :=
  (dat0 (F := Ideal) V c).arrAt_eq_of_cover 16 (cupdA V c) (fun t _ => cupd_flushed V c t) cupd_covered

/-! ## The node region: 5 points, point `t` holding rows `2000 t … 2000 t + 1999` of every per-node array -/

theorem lt1 (t : Fin cfg1.N) : t.val < 5 := lt_of_lt_of_eq t.isLt N_1

/-- The grid has one axis, so a point's coordinate is its number. -/
theorem coord1 (t : Fin cfg1.N) : (BitVec.ofNat 32 (grid1.coords t 0).val).toNat = t.val := by
  show (BitVec.ofNat 32 (t.val / grid1.stride 0 % 5)).toNat = t.val
  have h := lt1 t
  have hs : grid1.stride 0 = 1 := by decide
  rw [hs, BitVec.toNat_ofNat]
  omega

/-- Row `r` of point `t`'s block is node `2000 t + r`. -/
def nodeRow (t : Fin cfg1.N) (r : Fin 2000) : Fin 10000 := ⟨2000 * t.val + r.val, by have := lt1 t; omega⟩

/-! ### Where each block sits in its array -/

theorem h_emb (t : Fin cfg1.N) (r : Fin 2000) (k : Fin 128) :
    ((cfg1.win 0).blk t).view.emb (ix2 r k) = (ix2 (nodeRow t r) k : S10000x128.Idx) :=
  idx2_ext (show win1_0.index t (0 : Fin 2) * 2000 + 1 * r.val = 2000 * t.val + r.val from row_off (coord1 t))
    (show win1_0.index t (1 : Fin 2) * 128 + 1 * k.val = k.val from zero_off rfl)

theorem agg_emb (t : Fin cfg1.N) (r : Fin 2000) (k : Fin 128) :
    ((cfg1.win 1).blk t).view.emb (ix2 r k) = (ix2 (nodeRow t r) k : S10000x128.Idx) :=
  idx2_ext (show win1_1.index t (0 : Fin 2) * 2000 + 1 * r.val = 2000 * t.val + r.val from row_off (coord1 t))
    (show win1_1.index t (1 : Fin 2) * 128 + 1 * k.val = k.val from zero_off rfl)

theorem ntemb_emb (t : Fin cfg1.N) (r : Fin 2000) (k : Fin 64) :
    ((cfg1.win 2).blk t).view.emb (ix2 r k) = (ix2 (nodeRow t r) k : S10000x64.Idx) :=
  idx2_ext (show win1_2.index t (0 : Fin 2) * 2000 + 1 * r.val = 2000 * t.val + r.val from row_off (coord1 t))
    (show win1_2.index t (1 : Fin 2) * 64 + 1 * k.val = k.val from zero_off rfl)

theorem hnew_emb (t : Fin cfg1.N) (r : Fin 2000) (k : Fin 128) :
    ((cfg1.win 9).blk t).view.emb (ix2 r k) = (ix2 (nodeRow t r) k : S10000x128.Idx) :=
  idx2_ext (show win1_9.index t (0 : Fin 2) * 2000 + 1 * r.val = 2000 * t.val + r.val from row_off (coord1 t))
    (show win1_9.index t (1 : Fin 2) * 128 + 1 * k.val = k.val from zero_off rfl)

/-! ### The per-node input blocks, entry by entry -/

theorem h_blk (c : Dev nD) (t : Fin cfg1.N) (r : Fin 2000) (k : Fin 128) :
    (iblk1 V c 0 t : Vec Ideal S2000x128 .f32) (ix2 r k) = (V c main_arg0 : S10000x128.Idx → EReal) (ix2 (nodeRow t r) k) :=
  congrArg (V c main_arg0 : S10000x128.Idx → EReal) (h_emb t r k)

theorem agg_blk (c : Dev nD) (t : Fin cfg1.N) (r : Fin 2000) (k : Fin 128) :
    (iblk1 V c 1 t : Vec Ideal S2000x128 .f32) (ix2 r k) = (V c main_v32 : S10000x128.Idx → EReal) (ix2 (nodeRow t r) k) :=
  congrArg (V c main_v32 : S10000x128.Idx → EReal) (agg_emb t r k)

theorem ntemb_blk (c : Dev nD) (t : Fin cfg1.N) (r : Fin 2000) (k : Fin 64) :
    (iblk1 V c 2 t : Vec Ideal S2000x64 .f32) (ix2 r k) = (V c main_arg6 : S10000x64.Idx → EReal) (ix2 (nodeRow t r) k) :=
  congrArg (V c main_arg6 : S10000x64.Idx → EReal) (ntemb_emb t r k)

/-! ### The resident weight blocks are the whole arrays -/

theorem wh_blk (c : Dev nD) (t : Fin cfg1.N) : (iblk1 V c 3 t : Vec Ideal S128x128 .f32) = (V c main_v7 : S128x128.Idx → EReal) :=
  funext fun j => congrArg (V c main_v7 : S128x128.Idx → EReal) (idx2_ext
    (show win1_3.index t (0 : Fin 2) * 128 + 1 * (j 0).val = (j 0).val from zero_off rfl)
    (show win1_3.index t (1 : Fin 2) * 128 + 1 * (j 1).val = (j 1).val from zero_off rfl))

theorem wm_blk (c : Dev nD) (t : Fin cfg1.N) : (iblk1 V c 4 t : Vec Ideal S128x128 .f32) = (V c main_v8 : S128x128.Idx → EReal) :=
  funext fun j => congrArg (V c main_v8 : S128x128.Idx → EReal) (idx2_ext
    (show win1_4.index t (0 : Fin 2) * 128 + 1 * (j 0).val = (j 0).val from zero_off rfl)
    (show win1_4.index t (1 : Fin 2) * 128 + 1 * (j 1).val = (j 1).val from zero_off rfl))

theorem wt_blk (c : Dev nD) (t : Fin cfg1.N) : (iblk1 V c 5 t : Vec Ideal S64x128 .f32) = (V c main_v9 : S64x128.Idx → EReal) :=
  funext fun j => congrArg (V c main_v9 : S64x128.Idx → EReal) (idx2_ext
    (show win1_5.index t (0 : Fin 2) * 64 + 1 * (j 0).val = (j 0).val from zero_off rfl)
    (show win1_5.index t (1 : Fin 2) * 128 + 1 * (j 1).val = (j 1).val from zero_off rfl))

theorem nb1_blk (c : Dev nD) (t : Fin cfg1.N) : (iblk1 V c 6 t : Vec Ideal S1x128 .f32) = (V c main_v10 : S1x128.Idx → EReal) :=
  funext fun j => congrArg (V c main_v10 : S1x128.Idx → EReal) (idx2_ext
    (show win1_6.index t (0 : Fin 2) * 1 + 1 * (j 0).val = (j 0).val from zero_off rfl)
    (show win1_6.index t (1 : Fin 2) * 128 + 1 * (j 1).val = (j 1).val from zero_off rfl))

theorem nw2_blk (c : Dev nD) (t : Fin cfg1.N) : (iblk1 V c 7 t : Vec Ideal S128x128 .f32) = (V c main_arg16 : S128x128.Idx → EReal) :=
  funext fun j => congrArg (V c main_arg16 : S128x128.Idx → EReal) (idx2_ext
    (show win1_7.index t (0 : Fin 2) * 128 + 1 * (j 0).val = (j 0).val from zero_off rfl)
    (show win1_7.index t (1 : Fin 2) * 128 + 1 * (j 1).val = (j 1).val from zero_off rfl))

theorem nb2_blk (c : Dev nD) (t : Fin cfg1.N) : (iblk1 V c 8 t : Vec Ideal S1x128 .f32) = (V c main_v11 : S1x128.Idx → EReal) :=
  funext fun j => congrArg (V c main_v11 : S1x128.Idx → EReal) (idx2_ext
    (show win1_8.index t (0 : Fin 2) * 1 + 1 * (j 0).val = (j 0).val from zero_off rfl)
    (show win1_8.index t (1 : Fin 2) * 128 + 1 * (j 1).val = (j 1).val from zero_off rfl))

/-! ### What the array ends holding -/

/-- Every node's new features, from row `n` of each per-node array. -/
def hnewA (c : Dev nD) : Buf (Elt Ideal) ((cfg1.win 9).arr.view.loc (c.tc : Thread nD τ)) := fun i : S10000x128.Idx =>
  nodeOut (V c main_arg0 i) (nodePre (row (V c main_arg0) (i 0)) (row (V c main_v32) (i 0)) (row (V c main_arg6) (i 0))
      (mat (V c main_v7)) (mat (V c main_v8)) (mat (V c main_v9)) (row (V c main_v10) 0))
    (mat (V c main_arg16)) (row (V c main_v11) 0) (i 1)

/-- One entry of an output block whose per-node rows are rows `g` of three arrays. -/
theorem hnew_entry (x0 x1 : Vec Ideal S2000x128 .f32) (x2 : Vec Ideal S2000x64 .f32) (x3 x4 : Vec Ideal S128x128 .f32)
    (x5 : Vec Ideal S64x128 .f32) (x6 : Vec Ideal S1x128 .f32) (x7 : Vec Ideal S128x128 .f32) (x8 : Vec Ideal S1x128 .f32)
    (A0 A1 : S10000x128.Idx → EReal) (A2 : S10000x64.Idx → EReal) (g : Fin 10000) (r : Fin 2000) (q : Fin 128)
    (h0 : ∀ k, x0 (ix2 r k) = A0 (ix2 g k)) (h1 : ∀ k, x1 (ix2 r k) = A1 (ix2 g k))
    (h2 : ∀ k, x2 (ix2 r k) = A2 (ix2 g k)) :
    out1_9 (F := Ideal) x0 x1 x2 x3 x4 x5 x6 x7 x8 (ix2 r q)
      = nodeOut (A0 (ix2 g q)) (nodePre (row A0 g) (row A1 g) (row A2 g) (mat x3) (mat x4) (mat x5) (row x6 0))
          (mat x7) (row x8 0) q := by
  rw [Block.out1_9_apply]
  have e0 : row x0 r = row A0 g := funext h0
  have e1 : row x1 r = row A1 g := funext h1
  have e2 : row x2 r = row A2 g := funext h2
  rw [e0, e1, e2, h0 q]

/-- What point `t` writes back is its block of `hnewA`. -/
theorem hnew_flushed (c : Dev nD) (t : Fin cfg1.N) :
    (dat1 (F := Ideal) V c).flushed 9 t = ((cfg1.win 9).blk t).view.read (Elt Ideal) (hnewA V c) := by
  show (cfg1.win 9).cut (grid1.coords t) ((dat1 V c).after 9 t) = _
  rw [after1_9]
  funext j
  obtain ⟨r, q, rfl⟩ : ∃ (r : Fin 2000) (q : Fin 128), j = ix2 r q := ⟨j 0, j 1, eq_ix2 j⟩
  refine (hnew_entry (iblk1 V c 0 t) (iblk1 V c 1 t) (iblk1 V c 2 t) (iblk1 V c 3 t) (iblk1 V c 4 t) (iblk1 V c 5 t)
    (iblk1 V c 6 t) (iblk1 V c 7 t) (iblk1 V c 8 t) (V c main_arg0) (V c main_v32) (V c main_arg6) (nodeRow t r) r q
    (h_blk V c t r) (agg_blk V c t r) (ntemb_blk V c t r)).trans ?_
  rw [wh_blk, wm_blk, wt_blk, nb1_blk, nw2_blk, nb2_blk]
  show _ = hnewA V c (((cfg1.win 9).blk t).view.emb (ix2 r q))
  rw [hnew_emb]
  rfl

/-! ### The blocks tile the array: node `n` is in point `n / 2000`'s block -/

theorem hnew_mem_blk (t : Fin cfg1.N) (i : S10000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v33).slice (win1_9.rect t)).set ↔ _
  rw [View.set_slice_whole, Rect.mem_set_unit]
  exact Iff.rfl

/-- The point whose block holds node `n`. -/
def nodePoint (n : Fin 10000) : Fin cfg1.N := ⟨n.val / 2000, lt_of_lt_of_eq (by have := n.isLt; omega) N_1.symm⟩

theorem hnew_covered (i : S10000x128.Idx) :
    ∃ t : Fin cfg1.N, (cfg1.win 9).flush t = true ∧ i ∈ ((cfg1.win 9).blk t).view.set := by
  have h0 : (i 0).val < 10000 := (i 0).isLt
  have h1 : (i 1).val < 128 := (i 1).isLt
  refine ⟨nodePoint (i 0), flush1_9 _, (hnew_mem_blk _ i).mpr fun a => ?_⟩
  match a with
  | ⟨0, _⟩ =>
    show win1_9.index (nodePoint (i 0)) (0 : Fin 2) * 2000 ≤ (i 0).val
      ∧ (i 0).val < win1_9.index (nodePoint (i 0)) (0 : Fin 2) * 2000 + 2000
    rw [show win1_9.index (nodePoint (i 0)) (0 : Fin 2) = (i 0).val / 2000 from coord1 (nodePoint (i 0))]
    omega
  | ⟨1, _⟩ =>
    show win1_9.index (nodePoint (i 0)) (1 : Fin 2) * 128 ≤ (i 1).val
      ∧ (i 1).val < win1_9.index (nodePoint (i 0)) (1 : Fin 2) * 128 + 128
    rw [show win1_9.index (nodePoint (i 0)) (1 : Fin 2) = 0 from rfl]
    omega

/-- The node-feature array after the node region. -/
theorem arr1_9 (c : Dev nD) :
    (dat1 (F := Ideal) V c).arrAt 9 cfg1.N = fun i : S10000x128.Idx =>
      nodeOut (V c main_arg0 i) (nodePre (row (V c main_arg0) (i 0)) (row (V c main_v32) (i 0)) (row (V c main_arg6) (i 0))
          (mat (V c main_v7)) (mat (V c main_v8)) (mat (V c main_v9)) (row (V c main_v10) 0))
        (mat (V c main_arg16)) (row (V c main_v11) 0) (i 1) :=
  (dat1 (F := Ideal) V c).arrAt_eq_of_cover 9 (hnewA V c) (fun t _ => hnew_flushed V c t) hnew_covered

end Cert.Egnn.Arrays

end
-- ==== Proof.KernelValue.lean ====
/-
  The idealized kernel's two results as functions of its arguments.  Each region's output array (a function of the
  arrays the region finds) is read at the host operations' terms for those arrays; the first dense layers, which
  the kernels apply to the pieces of a row against row slices of the weight matrix, become the dense layer of the
  concatenated row (`dense_cat4`, `dense_cat3`).
-/
import proofs.«100746_j18837726560908_1_alg».proof.Proof.Gen.KernelIdeal.Frame
import proofs.«100746_j18837726560908_1_alg».proof.Proof.Spec
import proofs.«100746_j18837726560908_1_alg».proof.Proof.KernelArrays
import proofs.«100746_j18837726560908_1_alg».proof.Proof.KernelHost

set_option maxRecDepth 16384

noncomputable section

namespace Cert.Egnn.Kernel

open Idealize.ShloMosaic Idealize.ShloMosaic.TcCoe Idealize.ShloMosaic.ValueIdx Idealize.SL.Sem Idealize.ShloMosaic.StableHlo
open Cert.KernelIdeal Cert.KernelIdeal.Gen Cert.Egnn Cert.Egnn.Host Cert.Egnn.Arrays

/-! ## The layers over sliced weights are the layers over concatenated rows -/

theorem msg_layout (HS HD : FVec Ideal S640000x128 .f32) (D : FVec Ideal S640000x1 .f32) (TE : FVec Ideal S640000x64 .f32)
    (W : FVec Ideal S321x128 .f32) (b1 : FVec Ideal S128 .f32) (W2 : FVec Ideal S128x128 .f32) (b2 : FVec Ideal S128 .f32) (i : S640000x128.Idx) :
    msgOf (edgePre (row HS (i 0)) (row HD (i 0)) (D (ix2 (i 0) 0)) (row TE (i 0))
        (mat (extractStridedSlice S128x128 ![0, 0] W slices_S321x128_S128x128_0_0))
        (mat (extractStridedSlice S128x128 ![128, 0] W slices_S321x128_S128x128_128_0))
        (row (extractStridedSlice S1x128 ![256, 0] W slices_S321x128_S1x128_256_0) 0)
        (mat (extractStridedSlice S64x128 ![257, 0] W slices_S321x128_S64x128_257_0))
        (row (shapeCast S1x128 b1 shapeCasts_S128_S1x128) 0))
      (mat W2) (row (shapeCast S1x128 b2 shapeCasts_S128_S1x128) 0) (i 1)
      = msgArr HS HD D TE W b1 W2 b2 i := by
  unfold msgArr
  rw [row_reshape b2]
  refine congrArg (fun p => msgOf p (mat W2) (vec b2) (i 1)) (funext fun k => ?_)
  rw [dense_cat4, mat_slice321_0, mat_slice321_128, row_slice321_256, mat_slice321_257, row_reshape]

theorem coord_layout (DIFF : FVec Ideal S640000x3 .f32) (HS HD : FVec Ideal S640000x128 .f32) (D : FVec Ideal S640000x1 .f32) (TE : FVec Ideal S640000x64 .f32)
    (W : FVec Ideal S321x128 .f32) (b1 : FVec Ideal S128 .f32) (W2 : FVec Ideal S128x128 .f32) (b2 : FVec Ideal S128 .f32)
    (cW1 : FVec Ideal S128x128 .f32) (cb1 : FVec Ideal S128 .f32) (cW2 : FVec Ideal S128x1 .f32) (i : S640000x3.Idx) :
    DIFF i * coordW (msgOf (edgePre (row HS (i 0)) (row HD (i 0)) (D (ix2 (i 0) 0)) (row TE (i 0))
        (mat (extractStridedSlice S128x128 ![0, 0] W slices_S321x128_S128x128_0_0))
        (mat (extractStridedSlice S128x128 ![128, 0] W slices_S321x128_S128x128_128_0))
        (row (extractStridedSlice S1x128 ![256, 0] W slices_S321x128_S1x128_256_0) 0)
        (mat (extractStridedSlice S64x128 ![257, 0] W slices_S321x128_S64x128_257_0))
        (row (shapeCast S1x128 b1 shapeCasts_S128_S1x128) 0))
      (mat W2) (row (shapeCast S1x128 b2 shapeCasts_S128_S1x128) 0))
        (mat cW1) (row (shapeCast S1x128 cb1 shapeCasts_S128_S1x128) 0) (fun k => cW2 (ix2 k 0))
      = coordArr DIFF (msgArr HS HD D TE W b1 W2 b2) cW1 cb1 cW2 i := by
  unfold coordArr
  rw [row_reshape cb1]
  refine congrArg (fun q => DIFF i * coordW q (mat cW1) (vec cb1) (fun k => cW2 (ix2 k 0))) (funext fun k => ?_)
  exact msg_layout HS HD D TE W b1 W2 b2 (ix2 (i 0) k)

theorem node_layout (H MI : FVec Ideal S10000x128 .f32) (T : FVec Ideal S10000x64 .f32) (W : FVec Ideal S320x128 .f32)
    (b1 : FVec Ideal S128 .f32) (W2 : FVec Ideal S128x128 .f32) (b2 : FVec Ideal S128 .f32) (i : S10000x128.Idx) :
    nodeOut (H i) (nodePre (row H (i 0)) (row MI (i 0)) (row T (i 0))
        (mat (extractStridedSlice S128x128 ![0, 0] W slices_S320x128_S128x128_0_0))
        (mat (extractStridedSlice S128x128 ![128, 0] W slices_S320x128_S128x128_128_0))
        (mat (extractStridedSlice S64x128 ![256, 0] W slices_S320x128_S64x128_256_0))
        (row (shapeCast S1x128 b1 shapeCasts_S128_S1x128) 0))
      (mat W2) (row (shapeCast S1x128 b2 shapeCasts_S128_S1x128) 0) (i 1)
      = nodeArr H MI T W b1 W2 b2 i := by
  unfold nodeArr
  rw [row_reshape b2]
  refine congrArg (fun p => nodeOut (H i) p (mat W2) (vec b2) (i 1)) (funext fun k => ?_)
  rw [dense_cat3, mat_slice320_0, mat_slice320_128, mat_slice320_256, row_reshape]

/-! ## The regions' arrays and the results -/

variable (m : (ℓ : Loc nD τ sig) → Buf (Elt Ideal) ℓ) (ρ : Dev nD → PrngReg)

/-- The message array: every edge's message from the gathered end-point features. -/
theorem msg_eq (c : Dev nD) : (dat0 (F := Ideal) (V1 m ρ) c).arrAt 15 cfg0.N = (msgArr (gathered (m ((c : Thread nD τ).loc main_arg0)) (m ((c : Thread nD τ).loc main_arg3))) (gathered (m ((c : Thread nD τ).loc main_arg0)) (m ((c : Thread nD τ).loc main_arg4))) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10))) := by
  rw [arr0_15 (V1 m ρ) c]
  funext i
  rw [V1_v18, V1_v25, V1_arg2, V1_arg5, V1_v0, V1_v1, V1_v2, V1_v3, V1_v4, V1_arg9, V1_v5]
  exact msg_layout _ _ _ _ _ _ _ _ i

/-- The coordinate-contribution array. -/
theorem coord_eq (c : Dev nD) : (dat0 (F := Ideal) (V1 m ρ) c).arrAt 16 cfg0.N
    = coordArr (m ((c : Thread nD τ).loc main_arg1)) (msgArr (gathered (m ((c : Thread nD τ).loc main_arg0)) (m ((c : Thread nD τ).loc main_arg3))) (gathered (m ((c : Thread nD τ).loc main_arg0)) (m ((c : Thread nD τ).loc main_arg4))) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) := by
  rw [arr0_16 (V1 m ρ) c]
  funext i
  rw [V1_v18, V1_v25, V1_arg1, V1_arg2, V1_arg5, V1_v0, V1_v1, V1_v2, V1_v3, V1_v4, V1_arg9, V1_v5, V1_arg11, V1_v6, V1_arg13]
  exact coord_layout _ _ _ _ _ _ _ _ _ _ _ _ i

/-- The first result: the updated node features. -/
theorem v33_eq (c : Dev nD) : W4 m ρ c (Proc.devRef .tc main_v33)
    = nodeArr (m ((c : Thread nD τ).loc main_arg0)) (scattered128 (m ((c : Thread nD τ).loc main_arg4)) (msgArr (gathered (m ((c : Thread nD τ).loc main_arg0)) (m ((c : Thread nD τ).loc main_arg3))) (gathered (m ((c : Thread nD τ).loc main_arg0)) (m ((c : Thread nD τ).loc main_arg4))) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10)))) (m ((c : Thread nD τ).loc main_arg6)) (m ((c : Thread nD τ).loc main_arg14)) (m ((c : Thread nD τ).loc main_arg15)) (m ((c : Thread nD τ).loc main_arg16)) (m ((c : Thread nD τ).loc main_arg17)) := by
  rw [W4_v33, arr1_9 (V3 m ρ) c]
  funext i
  rw [V3_arg0, V3_v32, V3_arg6, V3_v7, V3_v8, V3_v9, V3_v10, V3_arg16, V3_v11, msg_eq]
  exact node_layout _ _ _ _ _ _ _ i

/-- The second result: the coordinate updates. -/
theorem v29_eq (c : Dev nD) : W4 m ρ c (Proc.devRef .tc main_v29)
    = scattered3 (m ((c : Thread nD τ).loc main_arg3)) (coordArr (m ((c : Thread nD τ).loc main_arg1)) (msgArr (gathered (m ((c : Thread nD τ).loc main_arg0)) (m ((c : Thread nD τ).loc main_arg3))) (gathered (m ((c : Thread nD τ).loc main_arg0)) (m ((c : Thread nD τ).loc main_arg4))) (m ((c : Thread nD τ).loc main_arg2)) (m ((c : Thread nD τ).loc main_arg5)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13))) := by
  rw [W4_v29, coord_eq]

end Cert.Egnn.Kernel

end
-- ==== Proof.RefValue.lean ====
/-
  The reference, one layer at a time, as the specification's whole-array functions: the host's `dot_general` of a
  concatenated array is the dense layer of the concatenated row, the outlined `silu` (negate, exponential, add one,
  divide, multiply) is `x · σ(x)` entry by entry.
-/
import proofs.«100746_j18837726560908_1_alg».proof.Proof.Gen.ReferenceIdeal.Run
import proofs.«100746_j18837726560908_1_alg».proof.Proof.Gen.ReferenceIdeal.Read
import proofs.«100746_j18837726560908_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.Egnn.Ref

open Idealize.ShloMosaic Idealize.ShloMosaic.ValueIdx Cert.ReferenceIdeal Cert.ReferenceIdeal.Read Cert.Egnn

/-! ## Entry-wise facts: the activation, and a concatenated row read at a column -/

/-- The outlined activation at one entry: `x · (1 / (1 + e^(-x)))` is `x · σ(x)`. -/
theorem silu_entry (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = silu x := by
  rw [Ideal.ofBits_def, Ideal.ofBits_one_f32]
  rfl

/-- The four-piece concatenation read at row `e`, column `k`. -/
theorem read_cat4 (A B : S640000x128.Idx → EReal) (C : S640000x1.Idx → EReal) (D : S640000x64.Idx → EReal)
    (e : Fin 640000) (k : Fin 321) :
    concatenate S640000x321 1 [⟨S640000x128, A⟩, ⟨S640000x128, B⟩, ⟨S640000x1, C⟩, ⟨S640000x64, D⟩]
      Gen.concatenates_S640000x128_S640000x128_S640000x1_S640000x64_S640000x321_d1 (ix2 e k)
      = cat4 (row A e) (row B e) (C (ix2 e 0)) (row D e) k := by
  unfold cat4
  by_cases h1 : k.val < 128
  · rw [dif_pos h1]
    refine concatenate_apply_piece (1 : Fin S640000x321.rank) _ _ (ix2 e k) 0 (by show (0 : Nat) < 4; omega) S640000x128 A rfl rfl 0 rfl
      (ix2 e ⟨k.val, h1⟩) ?_ ?_
    · intro b hb
      match b with
      | ⟨0, _⟩ => rfl
      | ⟨1, _⟩ => exact absurd (Fin.ext rfl) hb
    · show 0 + k.val = k.val
      omega
  · rw [dif_neg h1]
    by_cases h2 : k.val < 256
    · rw [dif_pos h2]
      refine concatenate_apply_piece (1 : Fin S640000x321.rank) _ _ (ix2 e k) 1 (by show (1 : Nat) < 4; omega) S640000x128 B rfl rfl 128 rfl
        (ix2 e ⟨k.val - 128, by omega⟩) ?_ ?_
      · intro b hb
        match b with
        | ⟨0, _⟩ => rfl
        | ⟨1, _⟩ => exact absurd (Fin.ext rfl) hb
      · show 128 + (k.val - 128) = k.val
        omega
    · rw [dif_neg h2]
      by_cases h3 : k.val < 257
      · rw [if_pos h3]
        refine concatenate_apply_piece (1 : Fin S640000x321.rank) _ _ (ix2 e k) 2 (by show (2 : Nat) < 4; omega) S640000x1 C rfl rfl 256 rfl
          (ix2 e 0) ?_ ?_
        · intro b hb
          match b with
          | ⟨0, _⟩ => rfl
          | ⟨1, _⟩ => exact absurd (Fin.ext rfl) hb
        · show 256 + 0 = k.val
          omega
      · rw [if_neg h3]
        refine concatenate_apply_piece (1 : Fin S640000x321.rank) _ _ (ix2 e k) 3 (by show (3 : Nat) < 4; omega) S640000x64 D rfl rfl 257 rfl
          (ix2 e ⟨k.val - 257, by have := k.isLt; omega⟩) ?_ ?_
        · intro b hb
          match b with
          | ⟨0, _⟩ => rfl
          | ⟨1, _⟩ => exact absurd (Fin.ext rfl) hb
        · show 257 + (k.val - 257) = k.val
          omega

/-- The three-piece concatenation read at row `n`, column `k`. -/
theorem read_cat3 (A B : S10000x128.Idx → EReal) (D : S10000x64.Idx → EReal)
    (n : Fin 10000) (k : Fin 320) :
    concatenate S10000x320 1 [⟨S10000x128, A⟩, ⟨S10000x128, B⟩, ⟨S10000x64, D⟩]
      Gen.concatenates_S10000x128_S10000x128_S10000x64_S10000x320_d1 (ix2 n k)
      = cat3 (row A n) (row B n) (row D n) k := by
  unfold cat3
  by_cases h1 : k.val < 128
  · rw [dif_pos h1]
    refine concatenate_apply_piece (1 : Fin S10000x320.rank) _ _ (ix2 n k) 0 (by show (0 : Nat) < 3; omega) S10000x128 A rfl rfl 0 rfl
      (ix2 n ⟨k.val, h1⟩) ?_ ?_
    · intro b hb
      match b with
      | ⟨0, _⟩ => rfl
      | ⟨1, _⟩ => exact absurd (Fin.ext rfl) hb
    · show 0 + k.val = k.val
      omega
  · rw [dif_neg h1]
    by_cases h2 : k.val < 256
    · rw [dif_pos h2]
      refine concatenate_apply_piece (1 : Fin S10000x320.rank) _ _ (ix2 n k) 1 (by show (1 : Nat) < 3; omega) S10000x128 B rfl rfl 128 rfl
        (ix2 n ⟨k.val - 128, by omega⟩) ?_ ?_
      · intro b hb
        match b with
        | ⟨0, _⟩ => rfl
        | ⟨1, _⟩ => exact absurd (Fin.ext rfl) hb
      · show 128 + (k.val - 128) = k.val
        omega
    · rw [dif_neg h2]
      refine concatenate_apply_piece (1 : Fin S10000x320.rank) _ _ (ix2 n k) 2 (by show (2 : Nat) < 3; omega) S10000x64 D rfl rfl 256 rfl
        (ix2 n ⟨k.val - 256, by have := k.isLt; omega⟩) ?_ ?_
      · intro b hb
        match b with
        | ⟨0, _⟩ => rfl
        | ⟨1, _⟩ => exact absurd (Fin.ext rfl) hb
      · show 256 + (k.val - 256) = k.val
        omega

/-! ## The edge layers read at an index -/

/-- The first edge layer before its activation: the dense layer of the concatenated edge row. -/
theorem v18_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32) (e : Fin 640000) (j : Fin 128) :
    val_main_v18 (F := Ideal) x0 x2 x3 x4 x5 x7 x8 (ix2 e j) = dense (cat4 (row (val_main_v6 (F := Ideal) x0 x3) e) (row (val_main_v13 (F := Ideal) x0 x4) e) (x2 (ix2 e 0)) (row x5 e)) (mat x7) (vec x8) j := by
  have hl : ∀ k : Fin 321, lidx_main_v15 (ix2 e j) k = ix2 e k := fun k =>
    funext fun a => Fin.ext (by match a with | ⟨0, _⟩ => rfl | ⟨1, _⟩ => rfl)
  have hr : ∀ k : Fin 321, ridx_main_v15 (ix2 e j) k = ix2 k j := fun k =>
    funext fun a => Fin.ext (by match a with | ⟨0, _⟩ => rfl | ⟨1, _⟩ => rfl)
  have hb : idx_main_v16 (idx_main_v17 (ix2 e j)) = ix1 j :=
    funext fun a => Fin.ext (by match a with | ⟨0, _⟩ => rfl)
  rw [val_main_v18_apply, val_main_v15_apply, val_main_v17_apply, val_main_v16_apply, hb]
  refine congrArg₂ (· + ·) (Finset.sum_congr rfl fun k _ => ?_) rfl
  rw [hl, hr]
  exact congrArg (· * x7 (ix2 k j)) (read_cat4 (val_main_v6 (F := Ideal) x0 x3) (val_main_v13 (F := Ideal) x0 x4) x2 x5 e k)

/-- The activation of the first edge layer, entry by entry. -/
theorem v19_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32) (i : S640000x128.Idx) :
    val_main_v19 (F := Ideal) x0 x2 x3 x4 x5 x7 x8 i = silu (val_main_v18 (F := Ideal) x0 x2 x3 x4 x5 x7 x8 i) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply]
  exact silu_entry _

/-- The second edge layer before its activation: the dense layer of the activated row. -/
theorem v23_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32)
    (x9 : FVec Ideal S128x128 .f32) (x10 : FVec Ideal S128 .f32) (e : Fin 640000) (j : Fin 128) :
    val_main_v23 (F := Ideal) x0 x2 x3 x4 x5 x7 x8 x9 x10 (ix2 e j) = dense (row (val_main_v19 (F := Ideal) x0 x2 x3 x4 x5 x7 x8) e) (mat x9) (vec x10) j := by
  have hl : ∀ k : Fin 128, lidx_main_v20 (ix2 e j) k = ix2 e k := fun k =>
    funext fun a => Fin.ext (by match a with | ⟨0, _⟩ => rfl | ⟨1, _⟩ => rfl)
  have hr : ∀ k : Fin 128, ridx_main_v20 (ix2 e j) k = ix2 k j := fun k =>
    funext fun a => Fin.ext (by match a with | ⟨0, _⟩ => rfl | ⟨1, _⟩ => rfl)
  have hb : idx_main_v21 (idx_main_v22 (ix2 e j)) = ix1 j :=
    funext fun a => Fin.ext (by match a with | ⟨0, _⟩ => rfl)
  rw [val_main_v23_apply, val_main_v20_apply, val_main_v22_apply, val_main_v21_apply, hb]
  refine congrArg₂ (· + ·) (Finset.sum_congr rfl fun k _ => ?_) rfl
  rw [hl, hr]
  rfl

/-- The activation of the second edge layer, entry by entry: the message. -/
theorem v24_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32)
    (x9 : FVec Ideal S128x128 .f32) (x10 : FVec Ideal S128 .f32) (i : S640000x128.Idx) :
    val_main_v24 (F := Ideal) x0 x2 x3 x4 x5 x7 x8 x9 x10 i = silu (val_main_v23 (F := Ideal) x0 x2 x3 x4 x5 x7 x8 x9 x10 i) := by
  rw [val_main_v24_apply, val_main_call1_v5_apply, val_main_call1_v4_apply, val_main_call1_cst_0_apply,
    val_main_call1_v3_apply, val_main_call1_v2_apply, val_main_call1_cst_apply, val_main_call1_v1_apply,
    val_main_call1_v0_apply]
  exact silu_entry _

/-- The reference's messages. -/
theorem ref_msg (x0 : FVec Ideal S10000x128 .f32) (x2 : FVec Ideal S640000x1 .f32) (x3 x4 : IVec S640000 32)
    (x5 : FVec Ideal S640000x64 .f32) (x7 : FVec Ideal S321x128 .f32) (x8 : FVec Ideal S128 .f32)
    (x9 : FVec Ideal S128x128 .f32) (x10 : FVec Ideal S128 .f32) :
    val_main_v24 (F := Ideal) x0 x2 x3 x4 x5 x7 x8 x9 x10
      = msgArr (val_main_v6 (F := Ideal) x0 x3) (val_main_v13 (F := Ideal) x0 x4) x2 x5 x7 x8 x9 x10 := by
  funext i
  obtain ⟨e, j, rfl⟩ : ∃ (e : Fin 640000) (j : Fin 128), i = ix2 e j := ⟨i 0, i 1, eq_ix2 i⟩
  rw [v24_read, v23_read]
  -- both sides are the activation of the second dense layer; the rows agree entry by entry
  refine congrArg silu (congrArg (fun a => dense a (mat x9) (vec x10) j) (funext fun k => ?_))
  exact (v19_read x0 x2 x3 x4 x5 x7 x8 (ix2 e k)).trans (congrArg silu (v18_read x0 x2 x3 x4 x5 x7 x8 e k))

/-! ## The coordinate head read at an index -/

/-- The coordinate head's dense layer before its activation, over the message row. -/
theorem v28_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32)
    (x9 : FVec Ideal S128x128 .f32) (x10 : FVec Ideal S128 .f32) (x11 : FVec Ideal S128x128 .f32) (x12 : FVec Ideal S128 .f32) (e : Fin 640000) (j : Fin 128) :
    val_main_v28 (F := Ideal) x0 x2 x3 x4 x5 x7 x8 x9 x10 x11 x12 (ix2 e j) = dense (row (val_main_v24 (F := Ideal) x0 x2 x3 x4 x5 x7 x8 x9 x10) e) (mat x11) (vec x12) j := by
  have hl : ∀ k : Fin 128, lidx_main_v25 (ix2 e j) k = ix2 e k := fun k =>
    funext fun a => Fin.ext (by match a with | ⟨0, _⟩ => rfl | ⟨1, _⟩ => rfl)
  have hr : ∀ k : Fin 128, ridx_main_v25 (ix2 e j) k = ix2 k j := fun k =>
    funext fun a => Fin.ext (by match a with | ⟨0, _⟩ => rfl | ⟨1, _⟩ => rfl)
  have hb : idx_main_v26 (idx_main_v27 (ix2 e j)) = ix1 j :=
    funext fun a => Fin.ext (by match a with | ⟨0, _⟩ => rfl)
  rw [val_main_v28_apply, val_main_v25_apply, val_main_v27_apply, val_main_v26_apply, hb]
  refine congrArg₂ (· + ·) (Finset.sum_congr rfl fun k _ => ?_) rfl
  rw [hl, hr]
  rfl

/-- The activation of the coordinate head's dense layer, entry by entry. -/
theorem v29_read (x0 : FVec Ideal S10000x128 .f32) (x2 : FVec Ideal S640000x1 .f32) (x3 x4 : IVec S640000 32)
    (x5 : FVec Ideal S640000x64 .f32) (x7 : FVec Ideal S321x128 .f32) (x8 : FVec Ideal S128 .f32)
    (x9 : FVec Ideal S128x128 .f32) (x10 : FVec Ideal S128 .f32) (x11 : FVec Ideal S128x128 .f32) (x12 : FVec Ideal S128 .f32) (i : S640000x128.Idx) :
    val_main_v29 (F := Ideal) x0 x2 x3 x4 x5 x7 x8 x9 x10 x11 x12 i = silu (val_main_v28 (F := Ideal) x0 x2 x3 x4 x5 x7 x8 x9 x10 x11 x12 i) := by
  rw [val_main_v29_apply, val_main_call2_v5_apply, val_main_call2_v4_apply, val_main_call2_cst_0_apply,
    val_main_call2_v3_apply, val_main_call2_v2_apply, val_main_call2_cst_apply, val_main_call2_v1_apply,
    val_main_call2_v0_apply]
  exact silu_entry _

/-- The reference's coordinate contributions, over its messages. -/
theorem ref_coord (x0 : FVec Ideal S10000x128 .f32) (x1 : FVec Ideal S640000x3 .f32) (x2 : FVec Ideal S640000x1 .f32)
    (x3 x4 : IVec S640000 32) (x5 : FVec Ideal S640000x64 .f32) (x7 : FVec Ideal S321x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x1 .f32) :
    val_main_v32 (F := Ideal) x0 x1 x2 x3 x4 x5 x7 x8 x9 x10 x11 x12 x13
      = coordArr x1 (val_main_v24 (F := Ideal) x0 x2 x3 x4 x5 x7 x8 x9 x10) x11 x12 x13 := by
  funext i
  obtain ⟨e, c, rfl⟩ : ∃ (e : Fin 640000) (c : Fin 3), i = ix2 e c := ⟨i 0, i 1, eq_ix2 i⟩
  have hi : idx_main_v31 (ix2 e c) = ix2 e (0 : Fin 1) :=
    funext fun a => Fin.ext (by match a with | ⟨0, _⟩ => rfl | ⟨1, _⟩ => rfl)
  have hl : ∀ k : Fin 128, lidx_main_v30 (ix2 e (0 : Fin 1)) k = ix2 e k := fun k =>
    funext fun a => Fin.ext (by match a with | ⟨0, _⟩ => rfl | ⟨1, _⟩ => rfl)
  have hr : ∀ k : Fin 128, ridx_main_v30 (ix2 e (0 : Fin 1)) k = ix2 k (0 : Fin 1) := fun k =>
    funext fun a => Fin.ext (by match a with | ⟨0, _⟩ => rfl | ⟨1, _⟩ => rfl)
  rw [val_main_v32_apply, val_main_v31_apply, hi, val_main_v30_apply]
  -- the displacement times the projection of the activated dense layer of the message row
  refine congrArg (x1 (ix2 e c) * ·) (Finset.sum_congr rfl fun k _ => ?_)
  rw [hl, hr]
  exact congrArg (· * x13 (ix2 k 0)) ((v29_read x0 x2 x3 x4 x5 x7 x8 x9 x10 x11 x12 (ix2 e k)).trans (congrArg silu (v28_read x0 x2 x3 x4 x5 x7 x8 x9 x10 x11 x12 e k)))

/-! ## The node layers read at an index -/

/-- The first node layer before its activation: the dense layer of the concatenated node row. -/
theorem v43_read (x0 : FVec Ideal S10000x128 .f32) (x2 : FVec Ideal S640000x1 .f32) (x3 x4 : IVec S640000 32)
    (x5 : FVec Ideal S640000x64 .f32) (x6 : FVec Ideal S10000x64 .f32) (x7 : FVec Ideal S321x128 .f32) (x8 : FVec Ideal S128 .f32)
    (x9 : FVec Ideal S128x128 .f32) (x10 : FVec Ideal S128 .f32) (x14 : FVec Ideal S320x128 .f32) (x15 : FVec Ideal S128 .f32) (e : Fin 10000) (j : Fin 128) :
    val_main_v43 (F := Ideal) x0 x2 x3 x4 x5 x6 x7 x8 x9 x10 x14 x15 (ix2 e j) = dense (cat3 (row x0 e) (row (val_main_v38 (F := Ideal) x0 x2 x3 x4 x5 x7 x8 x9 x10) e) (row x6 e)) (mat x14) (vec x15) j := by
  have hl : ∀ k : Fin 320, lidx_main_v40 (ix2 e j) k = ix2 e k := fun k =>
    funext fun a => Fin.ext (by match a with | ⟨0, _⟩ => rfl | ⟨1, _⟩ => rfl)
  have hr : ∀ k : Fin 320, ridx_main_v40 (ix2 e j) k = ix2 k j := fun k =>
    funext fun a => Fin.ext (by match a with | ⟨0, _⟩ => rfl | ⟨1, _⟩ => rfl)
  have hb : idx_main_v41 (idx_main_v42 (ix2 e j)) = ix1 j :=
    funext fun a => Fin.ext (by match a with | ⟨0, _⟩ => rfl)
  rw [val_main_v43_apply, val_main_v40_apply, val_main_v42_apply, val_main_v41_apply, hb]
  refine congrArg₂ (· + ·) (Finset.sum_congr rfl fun k _ => ?_) rfl
  rw [hl, hr]
  exact congrArg (· * x14 (ix2 k j)) (read_cat3 x0 (val_main_v38 (F := Ideal) x0 x2 x3 x4 x5 x7 x8 x9 x10) x6 e k)

/-- The activation of the first node layer, entry by entry. -/
theorem v44_read (x0 : FVec Ideal S10000x128 .f32) (x2 : FVec Ideal S640000x1 .f32) (x3 x4 : IVec S640000 32)
    (x5 : FVec Ideal S640000x64 .f32) (x6 : FVec Ideal S10000x64 .f32) (x7 : FVec Ideal S321x128 .f32) (x8 : FVec Ideal S128 .f32)
    (x9 : FVec Ideal S128x128 .f32) (x10 : FVec Ideal S128 .f32) (x14 : FVec Ideal S320x128 .f32) (x15 : FVec Ideal S128 .f32) (i : S10000x128.Idx) :
    val_main_v44 (F := Ideal) x0 x2 x3 x4 x5 x6 x7 x8 x9 x10 x14 x15 i = silu (val_main_v43 (F := Ideal) x0 x2 x3 x4 x5 x6 x7 x8 x9 x10 x14 x15 i) := by
  rw [val_main_v44_apply, val_main_call3_v5_apply, val_main_call3_v4_apply, val_main_call3_cst_0_apply,
    val_main_call3_v3_apply, val_main_call3_v2_apply, val_main_call3_cst_apply, val_main_call3_v1_apply,
    val_main_call3_v0_apply]
  exact silu_entry _

/-- The second node layer: the dense layer of the activated row. -/
theorem v48_read (x0 : FVec Ideal S10000x128 .f32) (x2 : FVec Ideal S640000x1 .f32) (x3 x4 : IVec S640000 32)
    (x5 : FVec Ideal S640000x64 .f32) (x6 : FVec Ideal S10000x64 .f32) (x7 : FVec Ideal S321x128 .f32) (x8 : FVec Ideal S128 .f32)
    (x9 : FVec Ideal S128x128 .f32) (x10 : FVec Ideal S128 .f32) (x14 : FVec Ideal S320x128 .f32) (x15 : FVec Ideal S128 .f32) (x16 : FVec Ideal S128x128 .f32) (x17 : FVec Ideal S128 .f32) (e : Fin 10000) (j : Fin 128) :
    val_main_v48 (F := Ideal) x0 x2 x3 x4 x5 x6 x7 x8 x9 x10 x14 x15 x16 x17 (ix2 e j) = dense (row (val_main_v44 (F := Ideal) x0 x2 x3 x4 x5 x6 x7 x8 x9 x10 x14 x15) e) (mat x16) (vec x17) j := by
  have hl : ∀ k : Fin 128, lidx_main_v45 (ix2 e j) k = ix2 e k := fun k =>
    funext fun a => Fin.ext (by match a with | ⟨0, _⟩ => rfl | ⟨1, _⟩ => rfl)
  have hr : ∀ k : Fin 128, ridx_main_v45 (ix2 e j) k = ix2 k j := fun k =>
    funext fun a => Fin.ext (by match a with | ⟨0, _⟩ => rfl | ⟨1, _⟩ => rfl)
  have hb : idx_main_v46 (idx_main_v47 (ix2 e j)) = ix1 j :=
    funext fun a => Fin.ext (by match a with | ⟨0, _⟩ => rfl)
  rw [val_main_v48_apply, val_main_v45_apply, val_main_v47_apply, val_main_v46_apply, hb]
  refine congrArg₂ (· + ·) (Finset.sum_congr rfl fun k _ => ?_) rfl
  rw [hl, hr]
  rfl

/-- The reference's node update, over its aggregated messages. -/
theorem ref_node (x0 : FVec Ideal S10000x128 .f32) (x2 : FVec Ideal S640000x1 .f32) (x3 x4 : IVec S640000 32)
    (x5 : FVec Ideal S640000x64 .f32) (x6 : FVec Ideal S10000x64 .f32) (x7 : FVec Ideal S321x128 .f32) (x8 : FVec Ideal S128 .f32)
    (x9 : FVec Ideal S128x128 .f32) (x10 : FVec Ideal S128 .f32) (x14 : FVec Ideal S320x128 .f32) (x15 : FVec Ideal S128 .f32)
    (x16 : FVec Ideal S128x128 .f32) (x17 : FVec Ideal S128 .f32) :
    val_main_v49 (F := Ideal) x0 x2 x3 x4 x5 x6 x7 x8 x9 x10 x14 x15 x16 x17
      = nodeArr x0 (val_main_v38 (F := Ideal) x0 x2 x3 x4 x5 x7 x8 x9 x10) x6 x14 x15 x16 x17 := by
  funext i
  obtain ⟨n, j, rfl⟩ : ∃ (n : Fin 10000) (j : Fin 128), i = ix2 n j := ⟨i 0, i 1, eq_ix2 i⟩
  rw [val_main_v49_apply, v48_read]
  -- the old feature plus the second dense layer; the activated rows agree entry by entry
  refine congrArg (x0 (ix2 n j) + ·) (congrArg (fun a => dense a (mat x16) (vec x17) j) (funext fun k => ?_))
  exact (v44_read x0 x2 x3 x4 x5 x6 x7 x8 x9 x10 x14 x15 (ix2 n k)).trans (congrArg silu (v43_read x0 x2 x3 x4 x5 x6 x7 x8 x9 x10 x14 x15 n k))

end Cert.Egnn.Ref

end
-- ==== Proof.lean ====
/-
  The certificate of a message-passing layer: an edge kernel (two dense layers with `x · σ(x)` activations giving each
  edge's message, a coordinate MLP giving each edge's displacement weight) and a node kernel (a dense MLP with a
  residual), with the gathers of node rows and the scatter-adds onto nodes on the host between them, against the plain
  array program.

  On the extended reals both programs compute the same functions of the arguments.  The kernels apply each first
  dense layer to the pieces of an input row (source, destination, distance, time embedding; resp. features,
  aggregated messages, time embedding) against row slices of the weight matrix, where the reference multiplies the
  concatenated row by the whole matrix: a finite sum split at the pieces' boundaries, regrouped by commutativity and
  associativity of addition alone, so no finiteness of the inputs is used.  The logistic function of the kernels and
  the reference's `1 / (1 + e^(-x))` are one function; format changes are the identity.  Gathers and scatter-adds are
  the same host operations on both sides and stay uninterpreted.

  The three frames are the generated ones (the reference's: its generated run with the results dropped); the
  kernel's run with its results named and the reference's run are re-posted at the common functions
  `nodeArr … (scattered128 … (msgArr …))` and `scattered3 … (coordArr … (msgArr …))`.
-/
import proofs.«100746_j18837726560908_1_alg».proof.Defs
import proofs.«100746_j18837726560908_1_alg».proof.Proof.Gen.Kernel
import proofs.«100746_j18837726560908_1_alg».proof.Proof.Gen.Kernel.Frame
import proofs.«100746_j18837726560908_1_alg».proof.Proof.Gen.KernelIdeal
import proofs.«100746_j18837726560908_1_alg».proof.Proof.Gen.KernelIdeal.Frame
import proofs.«100746_j18837726560908_1_alg».proof.Proof.Gen.ReferenceIdeal
import proofs.«100746_j18837726560908_1_alg».proof.Proof.Gen.ReferenceIdeal.Run
import proofs.«100746_j18837726560908_1_alg».proof.Proof.Gen.ReferenceIdeal.Read
import proofs.«100746_j18837726560908_1_alg».proof.Proof.Gen.Pre_finite_inputs
import proofs.«100746_j18837726560908_1_alg».proof.Proof.Spec
import proofs.«100746_j18837726560908_1_alg».proof.Proof.RunNamed
import proofs.«100746_j18837726560908_1_alg».proof.Proof.KernelHost
import proofs.«100746_j18837726560908_1_alg».proof.Proof.KernelValue
import proofs.«100746_j18837726560908_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Cert.Egnn Cert.Egnn.Host

/-! ## The reference's layers composed -/

section reference
open Cert.ReferenceIdeal Cert.ReferenceIdeal.Read

/-- The reference's first result is the node layer over the scattered messages. -/
theorem ref_result0 (x0 : FVec Ideal S10000x128 .f32) (x2 : FVec Ideal S640000x1 .f32) (x3 x4 : IVec S640000 32)
    (x5 : FVec Ideal S640000x64 .f32) (x6 : FVec Ideal S10000x64 .f32) (x7 : FVec Ideal S321x128 .f32) (x8 : FVec Ideal S128 .f32)
    (x9 : FVec Ideal S128x128 .f32) (x10 : FVec Ideal S128 .f32) (x14 : FVec Ideal S320x128 .f32) (x15 : FVec Ideal S128 .f32)
    (x16 : FVec Ideal S128x128 .f32) (x17 : FVec Ideal S128 .f32) :
    val_main_v49 (F := Ideal) x0 x2 x3 x4 x5 x6 x7 x8 x9 x10 x14 x15 x16 x17
      = nodeArr x0 (scattered128 x4 (msgArr (gathered x0 x3) (gathered x0 x4) x2 x5 x7 x8 x9 x10)) x6 x14 x15 x16 x17 := by
  rw [Cert.Egnn.Ref.ref_node]
  unfold val_main_v38
  rw [Cert.Egnn.Ref.ref_msg]
  rfl

/-- The reference's second result is the scattered coordinate contributions. -/
theorem ref_result1 (x0 : FVec Ideal S10000x128 .f32) (x1 : FVec Ideal S640000x3 .f32) (x2 : FVec Ideal S640000x1 .f32)
    (x3 x4 : IVec S640000 32) (x5 : FVec Ideal S640000x64 .f32) (x7 : FVec Ideal S321x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x1 .f32) :
    val_main_v35 (F := Ideal) x0 x1 x2 x3 x4 x5 x7 x8 x9 x10 x11 x12 x13
      = scattered3 x3 (coordArr x1 (msgArr (gathered x0 x3) (gathered x0 x4) x2 x5 x7 x8 x9 x10) x11 x12 x13) := by
  unfold val_main_v35
  rw [Cert.Egnn.Ref.ref_coord, Cert.Egnn.Ref.ref_msg]
  rfl

end reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- Both programs end with the updated node features at the node layer of the scattered messages and the coordinate
    updates at the scattered coordinate contributions, as functions of arguments that agree. -/
theorem algebraic : Cert.algebraic_KernelIdeal_ReferenceIdeal := by
  intro m ρ m' ρ' _ hagree
  refine ⟨fun c => nodeArr (m ((c.tc : Thread Cert.KernelIdeal.nD Cert.KernelIdeal.τ).loc Cert.KernelIdeal.main_arg0)) (scattered128 (m ((c.tc : Thread Cert.KernelIdeal.nD Cert.KernelIdeal.τ).loc Cert.KernelIdeal.main_arg4)) (msgArr (gathered (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (gathered (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))) (m ((c.tc : Thread Cert.KernelIdeal.nD Cert.KernelIdeal.τ).loc Cert.KernelIdeal.main_arg6)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => scattered3 (m ((c.tc : Thread Cert.KernelIdeal.nD Cert.KernelIdeal.τ).loc Cert.KernelIdeal.main_arg3)) (coordArr (m ((c.tc : Thread Cert.KernelIdeal.nD Cert.KernelIdeal.τ).loc Cert.KernelIdeal.main_arg1)) (msgArr (gathered (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (gathered (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))), ?_, ?_⟩
  · exact (θ_run Cert.KernelIdeal.defs _ _).mono
      (fun r h c => ⟨(h c).1.trans (Cert.Egnn.Kernel.v33_eq m ρ c), (h c).2.1.trans (Cert.Egnn.Kernel.v29_eq m ρ c), (h c).2.2⟩)
      (Cert.KernelIdeal.Named.run_named m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17⟩ := hagree c
    refine ⟨(h c).1.trans ?_, (h c).2.1.trans ?_, (h c).2.2⟩
    · rw [Cert.ReferenceIdeal.Read.val_main_v49_eq, e0, e2, e3, e4, e5, e6, e7, e8, e9, e10, e14, e15, e16, e17]
      exact ref_result0 _ _ _ _ _ _ _ _ _ _ _ _ _ _
    · rw [Cert.ReferenceIdeal.Read.val_main_v35_eq, e0, e1, e2, e3, e4, e5, e7, e8, e9, e10, e11, e12, e13]
      exact ref_result1 _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
